-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : IVec S4096 32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg5 main_v24
  let main_c_9 : IVec S_ 32 := constantI S_ 32 16384#32
  let main_v26 : IVec S4096 32 := broadcastInDim S4096 ![] bcast_S_S4096 main_c_9
  let main_v27 : IVec S4096 1 := cmpi .slt main_arg5 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  main_v30

def fn {F : FTy → Type} [FloatOps F] (main_arg0 : FVec F S4096x4096 .f32) (main_arg1 : FVec F S16384x4096 .f32) (main_arg2 : FVec F S16384 .f32) (main_arg3 : FVec F S16384x4096 .f32) (main_arg4 : FVec F S4096 .f32) (main_arg5 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_arg5 main_v13 main_v16
-- ==== Kernel.lean ====
abbrev S4096x4096 : Shape := ⟨2, ![4096, 4096]⟩
abbrev S16384x4096 : Shape := ⟨2, ![16384, 4096]⟩
abbrev S16384 : Shape := ⟨1, ![16384]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 80
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .bf16⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S1x1, .i32⟩
  | .hbm, ⟨43, _⟩ => ⟨S4096x1, .i32⟩
  | .hbm, ⟨44, _⟩ => ⟨S4096x1, .i1⟩
  | .hbm, ⟨45, _⟩ => ⟨S4096x1, .i1⟩
  | .hbm, ⟨46, _⟩ => ⟨S_, .i1⟩
  | .hbm, ⟨47, _⟩ => ⟨S4096, .i1⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S1x4096, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S1, .i32⟩
  | .hbm, ⟨62, _⟩ => ⟨S_, .i32⟩
  | .hbm, ⟨63, _⟩ => ⟨S4096x1, .i32⟩
  | .hbm, ⟨64, _⟩ => ⟨S4096x1, .i1⟩
  | .hbm, ⟨65, _⟩ => ⟨S1x1, .i32⟩
  | .hbm, ⟨66, _⟩ => ⟨S4096x1, .i32⟩
  | .hbm, ⟨67, _⟩ => ⟨S4096x1, .i1⟩
  | .hbm, ⟨68, _⟩ => ⟨S4096x1, .i1⟩
  | .hbm, ⟨69, _⟩ => ⟨S_, .i1⟩
  | .hbm, ⟨70, _⟩ => ⟨S4096, .i1⟩
  | .hbm, ⟨71, _⟩ => ⟨S4096x4096, .f32⟩
  | .hbm, ⟨72, _⟩ => ⟨S4096x4096, .i1⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .bf16⟩
  | .hbm, ⟨77, _⟩ => ⟨S1x4096, .f32⟩
  | .hbm, ⟨78, _⟩ => ⟨S4096x4096, .bf16⟩
  | .hbm, ⟨79, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v2 : Ref sig .tc := ⟨.hbm, 51, rfl⟩
abbrev main_v3 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_v8 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  gather_S16384x4096_S4096x1_S4096x4096_1_0_n_n_0_1_14096_wf : GatherDims.WF S16384x4096 S4096x1 S4096x4096 [1] [0] [] [0] [] 1 ![1, 4096]
  gather_S16384_S4096x1_S4096_n_0_n_n_0_1_1_wf : GatherDims.WF S16384 S4096x1 S4096 [] [0] [] [0] [] 1 ![1]
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def gather_S16384x4096_S4096x1_S4096x4096_1_0_n_n_0_1_14096 : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := gather_S16384x4096_S4096x1_S4096x4096_1_0_n_n_0_1_14096_wf
def gather_S16384_S4096x1_S4096_n_0_n_n_0_1_1 : GatherDims S16384 S4096x1 S4096 where
  offsetDims := []
  collapsedSliceDims := [0]
  operandBatchingDims := []
  startIndicesBatchingDims := []
  startIndexMap := [0]
  indexVectorDim := 1
  sliceSizes := ![1]
  wf := gather_S16384_S4096x1_S4096_n_0_n_n_0_1_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x4096, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  gather_S16384x4096_S4096x1_S4096x4096_1_0_n_n_0_1_14096_wf : GatherDims.WF S16384x4096 S4096x1 S4096x4096 [1] [0] [] [0] [] 1 ![1, 4096]
  gather_S16384_S4096x1_S4096_n_0_n_n_0_1_1_wf : GatherDims.WF S16384 S4096x1 S4096 [] [0] [] [0] [] 1 ![1]
  dot_S4096x4096_S4096x4096_S4096x4096_1_1_0_0_n_n_wf : DotDims.WF S4096x4096 S4096x4096 S4096x4096 [1] [1] [0] [0] [] []
  dot_S4096x4096_S4096x4096_S4096x4096_1_0_0_1_n_n_wf : DotDims.WF S4096x4096 S4096x4096 S4096x4096 [1] [0] [0] [1] [] []

variable [Facts₀]

def gather_S16384x4096_S4096x1_S4096x4096_1_0_n_n_0_1_14096 : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := gather_S16384x4096_S4096x1_S4096x4096_1_0_n_n_0_1_14096_wf
def gather_S16384_S4096x1_S4096_n_0_n_n_0_1_1 : GatherDims S16384 S4096x1 S4096 where
  offsetDims := []
  collapsedSliceDims := [0]
  operandBatchingDims := []
  startIndicesBatchingDims := []
  startIndexMap := [0]
  indexVectorDim := 1
  sliceSizes := ![1]
  wf := gather_S16384_S4096x1_S4096_n_0_n_n_0_1_1_wf
def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.R0Base.lean ====
import proofs.«402536_j80994493268150_2_alg».proof.Proof.Gen.Kernel.Launch
import proofs.«402536_j80994493268150_2_alg».proof.Proof.Gen.Kernel.Skeleton
import proofs.«402536_j80994493268150_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: the windows' blocks, the body's two branch conditions decided over the grid, where the output window is
    idle, and the names the per-case runs are stated over. Everything is stated at a parameter `V`: the core's buffer
    contents when the region is entered. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first branch (the accumulator's reset): the innermost grid coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the bias and the store of the output block): the innermost grid coordinate is the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x1024 .bf16 := (Memref.whole cc0_stg3_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried between grid points. -/
abbrev scM0 : Memref sig .tc .vmem S1024x1024 .f32 := Memref.whole cc0_scratch0
abbrev VS0 : View sig .tc .vmem S1024x1024 .f32 := (scM0).view

/-- The scoped buffers that are no staging buffer of this pallas_call: the accumulator (at `X`) and the other call's
    buffers, each whole at some contents. -/
def wrap0 (c : Dev nD) (X : sProp 𝕄) : sProp 𝕄 :=
  iprop(X ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant before the first point: the accumulator whole at some contents, the other scoped
    buffers, the generator register at some state. -/
theorem PhiA0_eq (c : Dev nD) :
    (Pipeline.ΦA spec0 c : sProp 𝕄)
      = iprop(wrap0 (F := F) c (iprop(∃ d, owns (c : Thread nD τ) scM0 fullShare d)) ∗ (∃ r, prngReg c r)) := by
  unfold Pipeline.ΦA; rw [scopedRest0_eq]; simp only [scM0, owns_whole, wrap0]; try rfl

end Cert.Kernel.Hand

end
-- ==== Proof.K.R0RunA.lean ====
import proofs.«402536_j80994493268150_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the reset is taken, the output store is not: the accumulator starts from zero. The pieces its stores leave in the output block (`L3`) and in
    the accumulator (`LS`), last first, with the proof that on whole memrefs — the inputs at their contents — the body runs to a
    continuation holding the inputs as they were and those buffers with the pieces written. -/
noncomputable def kernelRun0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.K.R0RunB.lean ====
import proofs.«402536_j80994493268150_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where neither branch is taken: the accumulator is added to. The pieces its stores leave in the output block (`L3`) and in
    the accumulator (`LS`), last first, with the proof that on whole memrefs — the inputs at their contents — the body runs to a
    continuation holding the inputs as they were and those buffers with the pieces written. -/
noncomputable def kernelRun0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.K.R0RunC.lean ====
import proofs.«402536_j80994493268150_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the output store is taken: the accumulator is added to, then biased and stored. The pieces its stores leave in the output block (`L3`) and in
    the accumulator (`LS`), last first, with the proof that on whole memrefs — the inputs at their contents — the body runs to a
    continuation holding the inputs as they were and those buffers with the pieces written. -/
noncomputable def kernelRun0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.K.R0Frame.lean ====
import proofs.«402536_j80994493268150_2_alg».proof.Proof.K.R0RunA
import proofs.«402536_j80994493268150_2_alg».proof.Proof.K.R0RunB
import proofs.«402536_j80994493268150_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: what the accumulator and the output block hold after each grid point, the pipeline's proof data, and the
    body obligation at every point — at the region's entry contents `V`. The innermost grid axis runs over four
    blocks of the contracted axis: the point resets the accumulator when that coordinate is 0, adds its block's
    product at every point, and at coordinate 3 adds the bias row and stores the output block. -/

variable (V : (c : Dev nD) → (b : Ref sig .tc) → Buf (Elt F) ((c : Thread nD τ).loc b))

/-- The accumulator's pieces at a point of this kind cover it (whole-buffer stores). -/
theorem scover0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What the point leaves in the accumulator: its pieces read back. -/
def sout0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).2.1)

/-- What the point leaves in the output window's buffer (nothing is stored there: a placeholder no one consults, the window being idle and not written back). -/
def out0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) : Vec F S1024x1024 .bf16 :=
  VO0_3.read (Elt F) (VO0_3.writes (Elt F) VO0_3.junk (kernelRun0_A c i arg3 harg3 arg4 harg4 arg5 harg5 arg6 harg6 arg7 harg7 hc0 hc1 x0 x1 x2).1)

/-- The accumulator's pieces at a point of this kind cover it (whole-buffer stores). -/
theorem scover0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) (y : S1024x1024.Idx) :
    ∃ pc ∈ (kernelRun0_B c i arg3 harg3 arg4 harg4 arg5 harg5 arg6 harg6 arg7 harg7 hc0 hc1 x0 x1 x2 xs).2.1, y ∈ pc.1.set :=
  View.cover_of_tiledL (kernelRun0_B c i arg3 harg3 arg4 harg4 arg5 harg5 arg6 harg6 arg7 harg7 hc0 hc1 x0 x1 x2 xs).2.1 S1024x1024.size (by sl_kernel_rfl) y

/-- What the point leaves in the accumulator: its pieces read back. -/
def sout0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs).2.1)

/-- What the point leaves in the output window's buffer (nothing is stored there: a placeholder no one consults, the window being idle and not written back). -/
def out0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) : Vec F S1024x1024 .bf16 :=
  VO0_3.read (Elt F) (VO0_3.writes (Elt F) VO0_3.junk (kernelRun0_B c i arg3 harg3 arg4 harg4 arg5 harg5 arg6 harg6 arg7 harg7 hc0 hc1 x0 x1 x2 xs).1)

/-- The accumulator's pieces at a point of this kind cover it (whole-buffer stores). -/
theorem scover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).2.1, y ∈ pc.1.set :=
  View.cover_of_tiledL (kernelRun0_C c i arg3 harg3 arg4 harg4 arg5 harg5 arg6 harg6 arg7 harg7 hc0 hc1 x0 x1 x2 xs).2.1 S1024x1024.size (by sl_kernel_rfl) y

/-- What the point leaves in the accumulator: its pieces read back. -/
def sout0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs).2.1)

/-- The output block's pieces at a point that stores it cover it. -/
theorem cover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).1, y ∈ pc.1.set :=
  View.cover_of_tiledL (kernelRun0_C c i arg3 harg3 arg4 harg4 arg5 harg5 arg6 harg6 arg7 harg7 hc0 hc1 x0 x1 x2 xs).1 S1024x1024.size (by sl_kernel_rfl) y

/-- What the point leaves in the output window's buffer: its pieces read back. -/
def out0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) : Vec F S1024x1024 .bf16 :=
  VO0_3.read (Elt F) (VO0_3.writes (Elt F) VO0_3.junk (kernelRun0_C c i arg3 harg3 arg4 harg4 arg5 harg5 arg6 harg6 arg7 harg7 hc0 hc1 x0 x1 x2 xs).1)

/-! ## Point by point -/

/-- What the output window's buffer and the accumulator hold after the body at position `n`: by the kind of point,
    the accumulator of a point that does not reset taken from the point before. -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left in it. -/
def PhiS0 (c : Dev nD) : (n : ℕ) → n ≤ cfg0.N → sProp 𝕄
  | 0, _ => Pipeline.ΦA spec0 c
  | n + 1, hn => iprop(wrap0 (F := F) c (owns (c : Thread nD τ) scM0 fullShare ((outsAt0 V c n hn).2)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(wrap0 (F := F) c (owns (c : Thread nD τ) scM0 fullShare ((outsAt0 V c n hn).2)) ∗ (∃ r, prngReg c r)) := rfl

theorem PhiS0_pos (c : Dev nD) (n : ℕ) (h : n ≤ cfg0.N) (hz : n ≠ 0) :
    PhiS0 V c n h = iprop(wrap0 (F := F) c (owns (c : Thread nD τ) scM0 fullShare ((outsAt0 V c (n - 1) (by omega)).2)) ∗ (∃ r, prngReg c r)) := by
  cases n with
  | zero => exact absurd rfl hz
  | succ n => rfl

/-! ## The pipeline's proof data -/

/-- The arrays as the region finds them; after the body each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' buffers hold their blocks; the point's position modulo 4 says which run applies;
    the invariant hands over the accumulator at what the point before left and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        unfold wrap0
        iintro ⟨⟨⟨HS, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        unfold wrap0
        iintro ⟨⟨⟨HS, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      by_cases hz : t.val = 0
      · exfalso; omega
      · rw [PhiS0_castSucc V c t, PhiS0_pos V c _ _ hz]
        unfold wrap0
        iintro ⟨⟨⟨HS, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_C c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        unfold wrap0
        iintro ⟨⟨⟨HS, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_B c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  unfold wrap0
  iintro ⟨⟨HS, Hoth⟩, Hg⟩
  isplitl [HS Hoth]
  · isplitl [HS]
    · iexists _; iexact HS
    iexact Hoth
  iexact Hg

end Cert.Kernel.Hand

end
-- ==== Proof.K.R1Base.lean ====
import proofs.«402536_j80994493268150_2_alg».proof.Proof.Gen.Kernel.Launch
import proofs.«402536_j80994493268150_2_alg».proof.Proof.Gen.Kernel.Skeleton
import proofs.«402536_j80994493268150_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: the windows' blocks, the body's two branch conditions decided over the grid, where the output window is
    idle, and the names the per-case runs are stated over. Everything is stated at a parameter `V`: the core's buffer
    contents when the region is entered. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch (the accumulator's reset): the innermost grid coordinate is zero. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the bias and the store of the output block): the innermost grid coordinate is the last. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried between grid points. -/
abbrev scM1 : Memref sig .tc .vmem S1024x1024 .f32 := Memref.whole cc1_scratch0
abbrev VS1 : View sig .tc .vmem S1024x1024 .f32 := (scM1).view

/-- The scoped buffers that are no staging buffer of this pallas_call: the accumulator (at `X`) and the other call's
    buffers, each whole at some contents. -/
def wrap1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The region's invariant before the first point: the accumulator whole at some contents, the other scoped
    buffers, the generator register at some state. -/
theorem PhiA1_eq (c : Dev nD) :
    (Pipeline.ΦA spec1 c : sProp 𝕄)
      = iprop(wrap1 (F := F) c (iprop(∃ d, owns (c : Thread nD τ) scM1 fullShare d)) ∗ (∃ r, prngReg c r)) := by
  unfold Pipeline.ΦA; rw [scopedRest1_eq]; simp only [scM1, owns_whole, wrap1]; try rfl

end Cert.Kernel.Hand

end
-- ==== Proof.K.R1RunA.lean ====
import proofs.«402536_j80994493268150_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the reset is taken, the output store is not: the accumulator starts from zero. The pieces its stores leave in the output block (`L3`) and in
    the accumulator (`LS`), last first, with the proof that on whole memrefs — the inputs at their contents — the body runs to a
    continuation holding the inputs as they were and those buffers with the pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc2_kernel i arg3 harg3 arg4 harg4 arg5 harg5 arg6 harg6 arg7 harg7) K } := by
  refine ⟨[], ?_, fun xi3 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.K.R1RunB.lean ====
import proofs.«402536_j80994493268150_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where neither branch is taken: the accumulator is added to. The pieces its stores leave in the output block (`L3`) and in
    the accumulator (`LS`), last first, with the proof that on whole memrefs — the inputs at their contents — the body runs to a
    continuation holding the inputs as they were and those buffers with the pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc2_kernel i arg3 harg3 arg4 harg4 arg5 harg5 arg6 harg6 arg7 harg7) K } := by
  refine ⟨[], ?_, fun xi3 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.K.R1RunC.lean ====
import proofs.«402536_j80994493268150_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the output store is taken: the accumulator is added to, then biased and stored. The pieces its stores leave in the output block (`L3`) and in
    the accumulator (`LS`), last first, with the proof that on whole memrefs — the inputs at their contents — the body runs to a
    continuation holding the inputs as they were and those buffers with the pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__fc2_kernel i arg3 harg3 arg4 harg4 arg5 harg5 arg6 harg6 arg7 harg7) K } := by
  refine ⟨?_, ?_, fun E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.K.R1Frame.lean ====
import proofs.«402536_j80994493268150_2_alg».proof.Proof.K.R1RunA
import proofs.«402536_j80994493268150_2_alg».proof.Proof.K.R1RunB
import proofs.«402536_j80994493268150_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: what the accumulator and the output block hold after each grid point, the pipeline's proof data, and the
    body obligation at every point — at the region's entry contents `V`. The innermost grid axis runs over four
    blocks of the contracted axis: the point resets the accumulator when that coordinate is 0, adds its block's
    product at every point, and at coordinate 3 adds the bias row and stores the output block. -/

variable (V : (c : Dev nD) → (b : Ref sig .tc) → Buf (Elt F) ((c : Thread nD τ).loc b))

/-- The accumulator's pieces at a point of this kind cover it (whole-buffer stores). -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the point leaves in the accumulator: its pieces read back. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- What the point leaves in the output window's buffer (nothing is stored there: a placeholder no one consults, the window being idle and not written back). -/
def out1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The accumulator's pieces at a point of this kind cover it (whole-buffer stores). -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) (y : S1024x1024.Idx) :
    ∃ pc ∈ (kernelRun1_B c i arg3 harg3 arg4 harg4 arg5 harg5 arg6 harg6 arg7 harg7 hc0 hc1 x0 x1 x2 xs).2.1, y ∈ pc.1.set :=
  View.cover_of_tiledL (kernelRun1_B c i arg3 harg3 arg4 harg4 arg5 harg5 arg6 harg6 arg7 harg7 hc0 hc1 x0 x1 x2 xs).2.1 S1024x1024.size (by sl_kernel_rfl) y

/-- What the point leaves in the accumulator: its pieces read back. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs).2.1)

/-- What the point leaves in the output window's buffer (nothing is stored there: a placeholder no one consults, the window being idle and not written back). -/
def out1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs).1)

/-- The accumulator's pieces at a point of this kind cover it (whole-buffer stores). -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y

/-- What the point leaves in the accumulator: its pieces read back. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

/-- The output block's pieces at a point that stores it cover it. -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x1024.size (by sl_kernel_rfl) y

/-- What the point leaves in the output window's buffer: its pieces read back. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs).1)

/-! ## Point by point -/

/-- What the output window's buffer and the accumulator hold after the body at position `n`: by the kind of point,
    the accumulator of a point that does not reset taken from the point before. -/
def outsAt1 (c : Dev nD) : (n : ℕ) → n < cfg1.N → Vec F S1024x1024 .f32 × Vec F S1024x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left in it. -/
def PhiS1 (c : Dev nD) : (n : ℕ) → n ≤ cfg1.N → sProp 𝕄
  | 0, _ => Pipeline.ΦA spec1 c
  | n + 1, hn => iprop(wrap1 (F := F) c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(wrap1 (F := F) c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(wrap1 (F := F) c (owns (c : Thread nD τ) scM1 fullShare ((outsAt1 V c (n - 1) (by omega)).2)) ∗ (∃ r, prngReg c r)) := by
  cases n with
  | zero => exact absurd rfl hz
  | succ n => rfl

/-! ## The pipeline's proof data -/

/-- The arrays as the region finds them; after the body each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the point's position modulo 4 says which run applies;
    the invariant hands over the accumulator at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  unfold wrap1
  iintro ⟨⟨Hq1, Hq2, Hq3, Hq4, Hq5, Hq6, Hq7, Hq8, Hq9, HS⟩, Hg⟩
  isplitl [HS Hq1 Hq2 Hq3 Hq4 Hq5 Hq6 Hq7 Hq8 Hq9]
  · isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS
  iexact Hg

end Cert.Kernel.Hand

end
-- ==== Proof.K.Launch.lean ====
import proofs.«402536_j80994493268150_2_alg».proof.Proof.K.R0Frame
import proofs.«402536_j80994493268150_2_alg».proof.Proof.K.R1Frame
import proofs.«402536_j80994493268150_2_alg».proof.Proof.Gen.Kernel.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! The whole run: the buffer contents at each boundary of @main (the six host stretches, then the two pallas_calls), the
    two regions as segments over those contents, and the launch — every weakly fair execution terminates with every
    unscoped buffer at the last boundary's contents. -/

variable (m : (ℓ : Loc nD τ sig) → Buf (Elt F) ℓ) (ρ : Dev nD → PrngReg)

/-- The contents the first pallas_call is entered from: the launch memory after the six host stretches. -/
abbrev Vin0 (c : Dev nD) (b : Ref sig .tc) : Buf (Elt F) ((c : Thread nD τ).loc b) := V6 m c b
/-- After the first pallas_call: its arrays at what the pipeline leaves, everything else as entered. -/
def W7 (c : Dev nD) : Valuation τ sig (Elt F) :=
  Pipeline.withArrays spec0 c (V6 m c) fun w => (dat0 (Vin0 m) c).arrAt w cfg0.N
/-- What the first pallas_call leaves in the buffers it may change. -/
def outs7 : Outs (F := F) := fun _ r c => W7 m c r
/-- The contents the second pallas_call is entered from. -/
abbrev Vin1 (c : Dev nD) (b : Ref sig .tc) : Buf (Elt F) ((c : Thread nD τ).loc b) := V7 m (outs7 m) c b
/-- After the second pallas_call. -/
def W8 (c : Dev nD) : Valuation τ sig (Elt F) :=
  Pipeline.withArrays spec1 c (V7 m (outs7 m) c) fun w => (dat1 (Vin1 m) c).arrAt w cfg1.N
/-- What the two pallas_calls leave in the buffers they may change, by boundary. -/
def outs : Outs (F := F) := fun j r c => if j = 8 then W8 m c r else W7 m c r

theorem outs_7 (c : Dev nD) : outs m 7 main_v7 c = (dat0 (Vin0 m) c).arrAt 3 cfg0.N := by
  unfold outs; rw [if_neg (by decide)]; unfold W7
  exact Pipeline.withArrays_arr spec0 launch0.win.arr_inj c _ _ 3
theorem V7_outs (c : Dev nD) : V7 m (outs m) c = V7 m (outs7 m) c := by
  unfold V7 outs outs7; rw [if_neg (by decide)]
theorem outs_8 (c : Dev nD) : outs m 8 main_v8 c = (dat1 (Vin1 m) c).arrAt 3 cfg1.N := by
  unfold outs; rw [if_pos rfl]; unfold W8
  exact Pipeline.withArrays_arr spec1 launch1.win.arr_inj c _ _ 3

abbrev Vout0 (c : Dev nD) (b : Ref sig .tc) : Buf (Elt F) ((c : Thread nD τ).loc b) := V7 m (outs m) c b
abbrev Vout1 (c : Dev nD) (b : Ref sig .tc) : Buf (Elt F) ((c : Thread nD τ).loc b) := V8 m (outs m) c b

/-- The first call's output array is the one buffer the boundary after it updates. -/
theorem Vout0_arr3 (c : Dev nD) : Vout0 m c (Pipeline.arrRef spec0 3) = outs m 7 main_v7 c := Function.update_self _ _ _
set_option maxHeartbeats 1600000 in
theorem hF0 (c : Dev nD) (w : Fin cfg0.W) : (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (V7_of m (outs m) c _ (by decide)).symm)
  | ⟨1, _⟩ => exact ((dat0 (Vin0 m) c).arrAt_in 1 rfl _).trans ((A_eq0 (Vin0 m) c 1).trans (V7_of m (outs m) c _ (by decide)).symm)
  | ⟨2, _⟩ => exact ((dat0 (Vin0 m) c).arrAt_in 2 rfl _).trans ((A_eq0 (Vin0 m) c 2).trans (V7_of m (outs m) c _ (by decide)).symm)
  | ⟨3, _⟩ => exact (outs_7 m c).symm.trans (Vout0_arr3 m c).symm
theorem hrest0 (c : Dev nD) : ∀ b, b ∉ Finset.univ.image (Pipeline.arrRef spec0) → Vout0 m c b = Vin0 m c b :=
  fun b hb => V7_of m (outs m) c b (fun h => hb (by
    have hb7 := List.eq_of_mem_singleton h; subst hb7; exact Finset.mem_image.mpr ⟨3, Finset.mem_univ _, rfl⟩))

/-- The second call's output array is the one buffer the boundary after it updates. -/
theorem Vout1_arr3 (c : Dev nD) : Vout1 m c (Pipeline.arrRef spec1 3) = outs m 8 main_v8 c := Function.update_self _ _ _
set_option maxHeartbeats 1600000 in
theorem hF1 (c : Dev nD) (w : Fin cfg1.W) : (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans ((congrFun (V7_outs m c).symm _).trans (V8_of m (outs m) c _ (by decide)).symm))
  | ⟨1, _⟩ => exact ((dat1 (Vin1 m) c).arrAt_in 1 rfl _).trans ((A_eq1 (Vin1 m) c 1).trans ((congrFun (V7_outs m c).symm _).trans (V8_of m (outs m) c _ (by decide)).symm))
  | ⟨2, _⟩ => exact ((dat1 (Vin1 m) c).arrAt_in 2 rfl _).trans ((A_eq1 (Vin1 m) c 2).trans ((congrFun (V7_outs m c).symm _).trans (V8_of m (outs m) c _ (by decide)).symm))
  | ⟨3, _⟩ => exact (outs_8 m c).symm.trans (Vout1_arr3 m c).symm
theorem hrest1 (c : Dev nD) : ∀ b, b ∉ Finset.univ.image (Pipeline.arrRef spec1) → Vout1 m c b = Vin1 m c b :=
  fun b hb => (V8_of m (outs m) c b (fun h => hb (by
    have hb8 := List.eq_of_mem_singleton h; subst hb8; exact Finset.mem_image.mpr ⟨3, Finset.mem_univ _, rfl⟩))).trans (congrFun (V7_outs m c) _)

/-- Both pipelines' proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev L0 : GSem nD τ sig → Finset Unit := fun _ => ∅
abbrev lv0 : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

set_option backward.isDefEq.respectTransparency.types false in
/-- Region 0 over the thread state "every unscoped buffer at the boundary's contents, the generator register at some
    state, nothing owed": its arrays split out of the unscoped buffers on entry and put back at their final contents on
    exit; the generator register and the scoped buffers into the invariant and out. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L0 lv0 0 fun _ _ => rfl
  pre c := iprop(StableHlo.held (c : Thread nD τ) (Pipeline.ucRefs τ sig) (V6 m c) ∗ Rr (F := F) c)
  post c := iprop(StableHlo.held (c : Thread nD τ) (Pipeline.ucRefs τ sig) (V7 m (outs m) c) ∗ Rr (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers on entry and put back at their final contents on
    exit; the generator register and the scoped buffers into the invariant and out. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L0 lv0 1 fun _ _ => rfl
  pre c := iprop(StableHlo.held (c : Thread nD τ) (Pipeline.ucRefs τ sig) (V7 m (outs m) c) ∗ Rr (F := F) c)
  post c := iprop(StableHlo.held (c : Thread nD τ) (Pipeline.ucRefs τ sig) (V8 m (outs m) c) ∗ Rr (F := F) c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_outs m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KI.R0Base.lean ====
import proofs.«402536_j80994493268150_2_alg».proof.Proof.Gen.KernelIdeal.Launch
import proofs.«402536_j80994493268150_2_alg».proof.Proof.Gen.KernelIdeal.Skeleton
import proofs.«402536_j80994493268150_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: the windows' blocks, the body's two branch conditions decided over the grid, where the output window is
    idle, and the names the per-case runs are stated over. Everything is stated at a parameter `V`: the core's buffer
    contents when the region is entered. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first branch (the accumulator's reset): the innermost grid coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the bias and the store of the output block): the innermost grid coordinate is the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x1024 .bf16 := (Memref.whole cc0_stg3_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried between grid points. -/
abbrev scM0 : Memref sig .tc .vmem S1024x1024 .f32 := Memref.whole cc0_scratch0
abbrev VS0 : View sig .tc .vmem S1024x1024 .f32 := (scM0).view

/-- The scoped buffers that are no staging buffer of this pallas_call: the accumulator (at `X`) and the other call's
    buffers, each whole at some contents. -/
def wrap0 (c : Dev nD) (X : sProp 𝕄) : sProp 𝕄 :=
  iprop(X ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant before the first point: the accumulator whole at some contents, the other scoped
    buffers, the generator register at some state. -/
theorem PhiA0_eq (c : Dev nD) :
    (Pipeline.ΦA spec0 c : sProp 𝕄)
      = iprop(wrap0 (F := F) c (iprop(∃ d, owns (c : Thread nD τ) scM0 fullShare d)) ∗ (∃ r, prngReg c r)) := by
  unfold Pipeline.ΦA; rw [scopedRest0_eq]; simp only [scM0, owns_whole, wrap0]; try rfl

end Cert.KernelIdeal.Hand

end
-- ==== Proof.KI.R0RunA.lean ====
import proofs.«402536_j80994493268150_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the reset is taken, the output store is not: the accumulator starts from zero. The pieces its stores leave in the output block (`L3`) and in
    the accumulator (`LS`), last first, with the proof that on whole memrefs — the inputs at their contents — the body runs to a
    continuation holding the inputs as they were and those buffers with the pieces written. -/
noncomputable def kernelRun0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.R0RunB.lean ====
import proofs.«402536_j80994493268150_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where neither branch is taken: the accumulator is added to. The pieces its stores leave in the output block (`L3`) and in
    the accumulator (`LS`), last first, with the proof that on whole memrefs — the inputs at their contents — the body runs to a
    continuation holding the inputs as they were and those buffers with the pieces written. -/
noncomputable def kernelRun0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.R0RunC.lean ====
import proofs.«402536_j80994493268150_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the output store is taken: the accumulator is added to, then biased and stored. The pieces its stores leave in the output block (`L3`) and in
    the accumulator (`LS`), last first, with the proof that on whole memrefs — the inputs at their contents — the body runs to a
    continuation holding the inputs as they were and those buffers with the pieces written. -/
noncomputable def kernelRun0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KI.R0Frame.lean ====
import proofs.«402536_j80994493268150_2_alg».proof.Proof.KI.R0RunA
import proofs.«402536_j80994493268150_2_alg».proof.Proof.KI.R0RunB
import proofs.«402536_j80994493268150_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: what the accumulator and the output block hold after each grid point, the pipeline's proof data, and the
    body obligation at every point — at the region's entry contents `V`. The innermost grid axis runs over four
    blocks of the contracted axis: the point resets the accumulator when that coordinate is 0, adds its block's
    product at every point, and at coordinate 3 adds the bias row and stores the output block. -/

variable (V : (c : Dev nD) → (b : Ref sig .tc) → Buf (Elt F) ((c : Thread nD τ).loc b))

/-- The accumulator's pieces at a point of this kind cover it (whole-buffer stores). -/
theorem scover0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What the point leaves in the accumulator: its pieces read back. -/
def sout0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).2.1)

/-- What the point leaves in the output window's buffer (nothing is stored there: a placeholder no one consults, the window being idle and not written back). -/
def out0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) : Vec F S1024x1024 .bf16 :=
  VO0_3.read (Elt F) (VO0_3.writes (Elt F) VO0_3.junk (kernelRun0_A c i arg3 harg3 arg4 harg4 arg5 harg5 arg6 harg6 arg7 harg7 hc0 hc1 x0 x1 x2).1)

/-- The accumulator's pieces at a point of this kind cover it (whole-buffer stores). -/
theorem scover0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) (y : S1024x1024.Idx) :
    ∃ pc ∈ (kernelRun0_B c i arg3 harg3 arg4 harg4 arg5 harg5 arg6 harg6 arg7 harg7 hc0 hc1 x0 x1 x2 xs).2.1, y ∈ pc.1.set :=
  View.cover_of_tiledL (kernelRun0_B c i arg3 harg3 arg4 harg4 arg5 harg5 arg6 harg6 arg7 harg7 hc0 hc1 x0 x1 x2 xs).2.1 S1024x1024.size (by sl_kernel_rfl) y

/-- What the point leaves in the accumulator: its pieces read back. -/
def sout0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs).2.1)

/-- What the point leaves in the output window's buffer (nothing is stored there: a placeholder no one consults, the window being idle and not written back). -/
def out0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) : Vec F S1024x1024 .bf16 :=
  VO0_3.read (Elt F) (VO0_3.writes (Elt F) VO0_3.junk (kernelRun0_B c i arg3 harg3 arg4 harg4 arg5 harg5 arg6 harg6 arg7 harg7 hc0 hc1 x0 x1 x2 xs).1)

/-- The accumulator's pieces at a point of this kind cover it (whole-buffer stores). -/
theorem scover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).2.1, y ∈ pc.1.set :=
  View.cover_of_tiledL (kernelRun0_C c i arg3 harg3 arg4 harg4 arg5 harg5 arg6 harg6 arg7 harg7 hc0 hc1 x0 x1 x2 xs).2.1 S1024x1024.size (by sl_kernel_rfl) y

/-- What the point leaves in the accumulator: its pieces read back. -/
def sout0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs).2.1)

/-- The output block's pieces at a point that stores it cover it. -/
theorem cover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).1, y ∈ pc.1.set :=
  View.cover_of_tiledL (kernelRun0_C c i arg3 harg3 arg4 harg4 arg5 harg5 arg6 harg6 arg7 harg7 hc0 hc1 x0 x1 x2 xs).1 S1024x1024.size (by sl_kernel_rfl) y

/-- What the point leaves in the output window's buffer: its pieces read back. -/
def out0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) : Vec F S1024x1024 .bf16 :=
  VO0_3.read (Elt F) (VO0_3.writes (Elt F) VO0_3.junk (kernelRun0_C c i arg3 harg3 arg4 harg4 arg5 harg5 arg6 harg6 arg7 harg7 hc0 hc1 x0 x1 x2 xs).1)

/-! ## Point by point -/

/-- What the output window's buffer and the accumulator hold after the body at position `n`: by the kind of point,
    the accumulator of a point that does not reset taken from the point before. -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left in it. -/
def PhiS0 (c : Dev nD) : (n : ℕ) → n ≤ cfg0.N → sProp 𝕄
  | 0, _ => Pipeline.ΦA spec0 c
  | n + 1, hn => iprop(wrap0 (F := F) c (owns (c : Thread nD τ) scM0 fullShare ((outsAt0 V c n hn).2)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(wrap0 (F := F) c (owns (c : Thread nD τ) scM0 fullShare ((outsAt0 V c n hn).2)) ∗ (∃ r, prngReg c r)) := rfl

theorem PhiS0_pos (c : Dev nD) (n : ℕ) (h : n ≤ cfg0.N) (hz : n ≠ 0) :
    PhiS0 V c n h = iprop(wrap0 (F := F) c (owns (c : Thread nD τ) scM0 fullShare ((outsAt0 V c (n - 1) (by omega)).2)) ∗ (∃ r, prngReg c r)) := by
  cases n with
  | zero => exact absurd rfl hz
  | succ n => rfl

/-! ## The pipeline's proof data -/

/-- The arrays as the region finds them; after the body each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' buffers hold their blocks; the point's position modulo 4 says which run applies;
    the invariant hands over the accumulator at what the point before left and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        unfold wrap0
        iintro ⟨⟨⟨HS, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        unfold wrap0
        iintro ⟨⟨⟨HS, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      by_cases hz : t.val = 0
      · exfalso; omega
      · rw [PhiS0_castSucc V c t, PhiS0_pos V c _ _ hz]
        unfold wrap0
        iintro ⟨⟨⟨HS, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_C c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        unfold wrap0
        iintro ⟨⟨⟨HS, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          ·
            isplitl [HS]
            · unfold owns; iexists _; isplitr
              swap; · iexact HS
              ipureintro; exact View.read_writes_of_cover _ _ _ _ _ (scover0_B c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  unfold wrap0
  iintro ⟨⟨HS, Hoth⟩, Hg⟩
  isplitl [HS Hoth]
  · isplitl [HS]
    · iexists _; iexact HS
    iexact Hoth
  iexact Hg

end Cert.KernelIdeal.Hand

end
-- ==== Proof.KI.R1Base.lean ====
import proofs.«402536_j80994493268150_2_alg».proof.Proof.Gen.KernelIdeal.Launch
import proofs.«402536_j80994493268150_2_alg».proof.Proof.Gen.KernelIdeal.Skeleton
import proofs.«402536_j80994493268150_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: the windows' blocks, the body's two branch conditions decided over the grid, where the output window is
    idle, and the names the per-case runs are stated over. Everything is stated at a parameter `V`: the core's buffer
    contents when the region is entered. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch (the accumulator's reset): the innermost grid coordinate is zero. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the bias and the store of the output block): the innermost grid coordinate is the last. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried between grid points. -/
abbrev scM1 : Memref sig .tc .vmem S1024x1024 .f32 := Memref.whole cc1_scratch0
abbrev VS1 : View sig .tc .vmem S1024x1024 .f32 := (scM1).view

/-- The scoped buffers that are no staging buffer of this pallas_call: the accumulator (at `X`) and the other call's
    buffers, each whole at some contents. -/
def wrap1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The region's invariant before the first point: the accumulator whole at some contents, the other scoped
    buffers, the generator register at some state. -/
theorem PhiA1_eq (c : Dev nD) :
    (Pipeline.ΦA spec1 c : sProp 𝕄)
      = iprop(wrap1 (F := F) c (iprop(∃ d, owns (c : Thread nD τ) scM1 fullShare d)) ∗ (∃ r, prngReg c r)) := by
  unfold Pipeline.ΦA; rw [scopedRest1_eq]; simp only [scM1, owns_whole, wrap1]; try rfl

end Cert.KernelIdeal.Hand

end
-- ==== Proof.KI.R1RunA.lean ====
import proofs.«402536_j80994493268150_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the reset is taken, the output store is not: the accumulator starts from zero. The pieces its stores leave in the output block (`L3`) and in
    the accumulator (`LS`), last first, with the proof that on whole memrefs — the inputs at their contents — the body runs to a
    continuation holding the inputs as they were and those buffers with the pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc2_kernel i arg3 harg3 arg4 harg4 arg5 harg5 arg6 harg6 arg7 harg7) K } := by
  refine ⟨[], ?_, fun xi3 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.R1RunB.lean ====
import proofs.«402536_j80994493268150_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where neither branch is taken: the accumulator is added to. The pieces its stores leave in the output block (`L3`) and in
    the accumulator (`LS`), last first, with the proof that on whole memrefs — the inputs at their contents — the body runs to a
    continuation holding the inputs as they were and those buffers with the pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc2_kernel i arg3 harg3 arg4 harg4 arg5 harg5 arg6 harg6 arg7 harg7) K } := by
  refine ⟨[], ?_, fun xi3 E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.R1RunC.lean ====
import proofs.«402536_j80994493268150_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the output store is taken: the accumulator is added to, then biased and stored. The pieces its stores leave in the output block (`L3`) and in
    the accumulator (`LS`), last first, with the proof that on whole memrefs — the inputs at their contents — the body runs to a
    continuation holding the inputs as they were and those buffers with the pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__fc2_kernel i arg3 harg3 arg4 harg4 arg5 harg5 arg6 harg6 arg7 harg7) K } := by
  refine ⟨?_, ?_, fun E K => ?run⟩
  case run =>
    simp only [cc1__fc2_kernel_eq_skeleton]; unfold cc1__fc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KI.R1Frame.lean ====
import proofs.«402536_j80994493268150_2_alg».proof.Proof.KI.R1RunA
import proofs.«402536_j80994493268150_2_alg».proof.Proof.KI.R1RunB
import proofs.«402536_j80994493268150_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: what the accumulator and the output block hold after each grid point, the pipeline's proof data, and the
    body obligation at every point — at the region's entry contents `V`. The innermost grid axis runs over four
    blocks of the contracted axis: the point resets the accumulator when that coordinate is 0, adds its block's
    product at every point, and at coordinate 3 adds the bias row and stores the output block. -/

variable (V : (c : Dev nD) → (b : Ref sig .tc) → Buf (Elt F) ((c : Thread nD τ).loc b))

/-- The accumulator's pieces at a point of this kind cover it (whole-buffer stores). -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the point leaves in the accumulator: its pieces read back. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- What the point leaves in the output window's buffer (nothing is stored there: a placeholder no one consults, the window being idle and not written back). -/
def out1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The accumulator's pieces at a point of this kind cover it (whole-buffer stores). -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) (y : S1024x1024.Idx) :
    ∃ pc ∈ (kernelRun1_B c i arg3 harg3 arg4 harg4 arg5 harg5 arg6 harg6 arg7 harg7 hc0 hc1 x0 x1 x2 xs).2.1, y ∈ pc.1.set :=
  View.cover_of_tiledL (kernelRun1_B c i arg3 harg3 arg4 harg4 arg5 harg5 arg6 harg6 arg7 harg7 hc0 hc1 x0 x1 x2 xs).2.1 S1024x1024.size (by sl_kernel_rfl) y

/-- What the point leaves in the accumulator: its pieces read back. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs).2.1)

/-- What the point leaves in the output window's buffer (nothing is stored there: a placeholder no one consults, the window being idle and not written back). -/
def out1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs).1)

/-- The accumulator's pieces at a point of this kind cover it (whole-buffer stores). -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y

/-- What the point leaves in the accumulator: its pieces read back. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

/-- The output block's pieces at a point that stores it cover it. -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x1024.size (by sl_kernel_rfl) y

/-- What the point leaves in the output window's buffer: its pieces read back. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs).1)

/-! ## Point by point -/

/-- What the output window's buffer and the accumulator hold after the body at position `n`: by the kind of point,
    the accumulator of a point that does not reset taken from the point before. -/
def outsAt1 (c : Dev nD) : (n : ℕ) → n < cfg1.N → Vec F S1024x1024 .f32 × Vec F S1024x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left in it. -/
def PhiS1 (c : Dev nD) : (n : ℕ) → n ≤ cfg1.N → sProp 𝕄
  | 0, _ => Pipeline.ΦA spec1 c
  | n + 1, hn => iprop(wrap1 (F := F) c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(wrap1 (F := F) c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(wrap1 (F := F) c (owns (c : Thread nD τ) scM1 fullShare ((outsAt1 V c (n - 1) (by omega)).2)) ∗ (∃ r, prngReg c r)) := by
  cases n with
  | zero => exact absurd rfl hz
  | succ n => rfl

/-! ## The pipeline's proof data -/

/-- The arrays as the region finds them; after the body each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the point's position modulo 4 says which run applies;
    the invariant hands over the accumulator at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        unfold wrap1
        iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hq1 Hq2 Hq3 Hq4 Hq5 Hq6 Hq7 Hq8 Hq9 Hg]
        · isplitl [HS Hq1 Hq2 Hq3 Hq4 Hq5 Hq6 Hq7 Hq8 Hq9]
          ·
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            unfold owns; iexists _; isplitr
            swap; · iexact HS
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  unfold wrap1
  iintro ⟨⟨Hq1, Hq2, Hq3, Hq4, Hq5, Hq6, Hq7, Hq8, Hq9, HS⟩, Hg⟩
  isplitl [HS Hq1 Hq2 Hq3 Hq4 Hq5 Hq6 Hq7 Hq8 Hq9]
  · isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS
  iexact Hg

end Cert.KernelIdeal.Hand

end
-- ==== Proof.KI.Launch.lean ====
import proofs.«402536_j80994493268150_2_alg».proof.Proof.KI.R0Frame
import proofs.«402536_j80994493268150_2_alg».proof.Proof.KI.R1Frame
import proofs.«402536_j80994493268150_2_alg».proof.Proof.Gen.KernelIdeal.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! The whole run: the buffer contents at each boundary of @main (the six host stretches, then the two pallas_calls), the
    two regions as segments over those contents, and the launch — every weakly fair execution terminates with every
    unscoped buffer at the last boundary's contents. -/

variable (m : (ℓ : Loc nD τ sig) → Buf (Elt F) ℓ) (ρ : Dev nD → PrngReg)

/-- The contents the first pallas_call is entered from: the launch memory after the six host stretches. -/
abbrev Vin0 (c : Dev nD) (b : Ref sig .tc) : Buf (Elt F) ((c : Thread nD τ).loc b) := V6 m c b
/-- After the first pallas_call: its arrays at what the pipeline leaves, everything else as entered. -/
def W7 (c : Dev nD) : Valuation τ sig (Elt F) :=
  Pipeline.withArrays spec0 c (V6 m c) fun w => (dat0 (Vin0 m) c).arrAt w cfg0.N
/-- What the first pallas_call leaves in the buffers it may change. -/
def outs7 : Outs (F := F) := fun _ r c => W7 m c r
/-- The contents the second pallas_call is entered from. -/
abbrev Vin1 (c : Dev nD) (b : Ref sig .tc) : Buf (Elt F) ((c : Thread nD τ).loc b) := V7 m (outs7 m) c b
/-- After the second pallas_call. -/
def W8 (c : Dev nD) : Valuation τ sig (Elt F) :=
  Pipeline.withArrays spec1 c (V7 m (outs7 m) c) fun w => (dat1 (Vin1 m) c).arrAt w cfg1.N
/-- What the two pallas_calls leave in the buffers they may change, by boundary. -/
def outs : Outs (F := F) := fun j r c => if j = 8 then W8 m c r else W7 m c r

theorem outs_7 (c : Dev nD) : outs m 7 main_v7 c = (dat0 (Vin0 m) c).arrAt 3 cfg0.N := by
  unfold outs; rw [if_neg (by decide)]; unfold W7
  exact Pipeline.withArrays_arr spec0 launch0.win.arr_inj c _ _ 3
theorem V7_outs (c : Dev nD) : V7 m (outs m) c = V7 m (outs7 m) c := by
  unfold V7 outs outs7; rw [if_neg (by decide)]
theorem outs_8 (c : Dev nD) : outs m 8 main_v8 c = (dat1 (Vin1 m) c).arrAt 3 cfg1.N := by
  unfold outs; rw [if_pos rfl]; unfold W8
  exact Pipeline.withArrays_arr spec1 launch1.win.arr_inj c _ _ 3

abbrev Vout0 (c : Dev nD) (b : Ref sig .tc) : Buf (Elt F) ((c : Thread nD τ).loc b) := V7 m (outs m) c b
abbrev Vout1 (c : Dev nD) (b : Ref sig .tc) : Buf (Elt F) ((c : Thread nD τ).loc b) := V8 m (outs m) c b

/-- The first call's output array is the one buffer the boundary after it updates. -/
theorem Vout0_arr3 (c : Dev nD) : Vout0 m c (Pipeline.arrRef spec0 3) = outs m 7 main_v7 c := Function.update_self _ _ _
set_option maxHeartbeats 1600000 in
theorem hF0 (c : Dev nD) (w : Fin cfg0.W) : (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (V7_of m (outs m) c _ (by decide)).symm)
  | ⟨1, _⟩ => exact ((dat0 (Vin0 m) c).arrAt_in 1 rfl _).trans ((A_eq0 (Vin0 m) c 1).trans (V7_of m (outs m) c _ (by decide)).symm)
  | ⟨2, _⟩ => exact ((dat0 (Vin0 m) c).arrAt_in 2 rfl _).trans ((A_eq0 (Vin0 m) c 2).trans (V7_of m (outs m) c _ (by decide)).symm)
  | ⟨3, _⟩ => exact (outs_7 m c).symm.trans (Vout0_arr3 m c).symm
theorem hrest0 (c : Dev nD) : ∀ b, b ∉ Finset.univ.image (Pipeline.arrRef spec0) → Vout0 m c b = Vin0 m c b :=
  fun b hb => V7_of m (outs m) c b (fun h => hb (by
    have hb7 := List.eq_of_mem_singleton h; subst hb7; exact Finset.mem_image.mpr ⟨3, Finset.mem_univ _, rfl⟩))

/-- The second call's output array is the one buffer the boundary after it updates. -/
theorem Vout1_arr3 (c : Dev nD) : Vout1 m c (Pipeline.arrRef spec1 3) = outs m 8 main_v8 c := Function.update_self _ _ _
set_option maxHeartbeats 1600000 in
theorem hF1 (c : Dev nD) (w : Fin cfg1.W) : (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans ((congrFun (V7_outs m c).symm _).trans (V8_of m (outs m) c _ (by decide)).symm))
  | ⟨1, _⟩ => exact ((dat1 (Vin1 m) c).arrAt_in 1 rfl _).trans ((A_eq1 (Vin1 m) c 1).trans ((congrFun (V7_outs m c).symm _).trans (V8_of m (outs m) c _ (by decide)).symm))
  | ⟨2, _⟩ => exact ((dat1 (Vin1 m) c).arrAt_in 2 rfl _).trans ((A_eq1 (Vin1 m) c 2).trans ((congrFun (V7_outs m c).symm _).trans (V8_of m (outs m) c _ (by decide)).symm))
  | ⟨3, _⟩ => exact (outs_8 m c).symm.trans (Vout1_arr3 m c).symm
theorem hrest1 (c : Dev nD) : ∀ b, b ∉ Finset.univ.image (Pipeline.arrRef spec1) → Vout1 m c b = Vin1 m c b :=
  fun b hb => (V8_of m (outs m) c b (fun h => hb (by
    have hb8 := List.eq_of_mem_singleton h; subst hb8; exact Finset.mem_image.mpr ⟨3, Finset.mem_univ _, rfl⟩))).trans (congrFun (V7_outs m c) _)

/-- Both pipelines' proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev L0 : GSem nD τ sig → Finset Unit := fun _ => ∅
abbrev lv0 : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

set_option backward.isDefEq.respectTransparency.types false in
/-- Region 0 over the thread state "every unscoped buffer at the boundary's contents, the generator register at some
    state, nothing owed": its arrays split out of the unscoped buffers on entry and put back at their final contents on
    exit; the generator register and the scoped buffers into the invariant and out. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L0 lv0 0 fun _ _ => rfl
  pre c := iprop(StableHlo.held (c : Thread nD τ) (Pipeline.ucRefs τ sig) (V6 m c) ∗ Rr (F := F) c)
  post c := iprop(StableHlo.held (c : Thread nD τ) (Pipeline.ucRefs τ sig) (V7 m (outs m) c) ∗ Rr (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers on entry and put back at their final contents on
    exit; the generator register and the scoped buffers into the invariant and out. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L0 lv0 1 fun _ _ => rfl
  pre c := iprop(StableHlo.held (c : Thread nD τ) (Pipeline.ucRefs τ sig) (V7 m (outs m) c) ∗ Rr (F := F) c)
  post c := iprop(StableHlo.held (c : Thread nD τ) (Pipeline.ucRefs τ sig) (V8 m (outs m) c) ∗ Rr (F := F) c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_outs m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.PayIdeal.lean ====
/-
  The arithmetic of the two matmul kernels' bodies, read at one element, at the ideal (extended-real) instance.

  Each kernel body stores three values into its blocks: the zero block that resets the accumulator, the accumulator plus a
  1024 x 1024 x 1024 block product, and, at the last step of the contraction, the accumulator plus the bias row (followed by
  a rectifier in the first kernel). At the ideal instance a format change is the identity, a shape cast to the same shape is
  the identity, and a matrix product into the zero block is the plain sum of products over the contraction coordinate. The
  first kernel contracts the LAST axis of both operands (x times the transpose of w); the second contracts the last axis of
  the left operand with the FIRST axis of the right one (h times w).

  Last, a sum over 4096 consecutive indices splits into four consecutive blocks of 1024: only commutativity and
  associativity of addition on the extended reals are used.
-/
import proofs.«402536_j80994493268150_2_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

open scoped BigOperators

/-! ## The first kernel: x times the transpose of w -/

/-- Where the first kernel's product reads its operands: the left operand at (row of the output, contraction coordinate),
    the right operand at (column of the output, contraction coordinate). -/
theorem lhs_k0_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_k0_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_k0_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_k0_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The first kernel's block product into the zero block, at (p, q): the sum over the shared last coordinate. -/
theorem matmul_k0_apply (x w : FVec Ideal S1024x1024 .bf16) (p q : Fin 1024) :
    matmul dot_S1024x1024_S1024x1024_S1024x1024_1_1_0_0_n_n none x w (constant S1024x1024 .f32 0x00000000#32) (ix2 p q)
      = ∑ d : Fin 1024, x (ix2 p d) * w (ix2 q d) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_k0_0 _ _
    | ⟨1, _⟩ => exact (lhs_k0_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_k0_0 _ _
    | ⟨1, _⟩ => exact (rhs_k0_1 _ _).trans hk)
  rw [el, er]

/-- The first kernel's accumulation step at (p, q): the accumulator there plus the sum, over the shared last coordinate, of
    the products of row p of x with row q of w. -/
theorem pay2_0_apply (x a : Vec Ideal S1024x1024 .f32) (w : Vec Ideal S1024x1024 .bf16) (p q : Fin 1024) :
    k0_pay2 x a w (ix2 p q) = a (ix2 p q) + ∑ d : Fin 1024, x (ix2 p d) * w (ix2 q d) := by
  unfold k0_pay2
  simp only [shapeCast_self]
  rw [addf_apply, matmul_k0_apply]
  rfl

/-! ## The second kernel: h times w -/

/-- Where the second kernel's product reads its operands: the left operand at (row of the output, contraction coordinate),
    the right operand at (contraction coordinate, column of the output). -/
theorem lhs_k1_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_k1_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_k1_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_k1_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The second kernel's block product into the zero block, at (p, q): the sum over the left operand's last and the right
    operand's first coordinate. -/
theorem matmul_k1_apply (h w : FVec Ideal S1024x1024 .bf16) (p q : Fin 1024) :
    matmul dot_S1024x1024_S1024x1024_S1024x1024_1_0_0_1_n_n none h w (constant S1024x1024 .f32 0x00000000#32) (ix2 p q)
      = ∑ d : Fin 1024, h (ix2 p d) * w (ix2 d q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_k1_0 _ _
    | ⟨1, _⟩ => exact (lhs_k1_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_k1_0 _ _).trans hk
    | ⟨1, _⟩ => exact rhs_k1_1 _ _)
  rw [el, er]

/-- The second kernel's accumulation step at (p, q): the accumulator there plus the sum over d of h at (p, d) times w at
    (d, q). -/
theorem pay2_1_apply (a : Vec Ideal S1024x1024 .f32) (h w : Vec Ideal S1024x1024 .bf16) (p q : Fin 1024) :
    k1_pay2 a h w (ix2 p q) = a (ix2 p q) + ∑ d : Fin 1024, h (ix2 p d) * w (ix2 d q) := by
  unfold k1_pay2
  simp only [shapeCast_self]
  rw [addf_apply, matmul_k1_apply]

/-! ## The reset and the final steps -/

/-- The first kernel's reset value is zero everywhere. -/
theorem pay1_0_apply (j : S1024x1024.Idx) : k0_pay1 (F := Ideal) j = 0 := by
  unfold k0_pay1
  simp only [shapeCast_self]
  exact Ideal.ofBits_zero_f32

/-- The second kernel's reset value is zero everywhere. -/
theorem pay1_1_apply (j : S1024x1024.Idx) : k1_pay1 (F := Ideal) j = 0 := by
  unfold k1_pay1
  simp only [shapeCast_self]
  exact Ideal.ofBits_zero_f32

/-- The first kernel's final step at (p, q): the accumulator plus the bias of column q, cut off below at zero. -/
theorem pay3_0_apply (acc : Vec Ideal S1024x1024 .f32) (b : Vec Ideal S1x1024 .f32) (p q : Fin 1024) :
    k0_pay3 acc b (ix2 p q) = max (acc (ix2 p q) + b (ix2 (0 : Fin 1) q)) 0 := by
  unfold k0_pay3
  simp only [shapeCast_self]
  rw [truncf_apply, maximumf_apply, addf_apply, broadcastTo_1b_ab_apply, broadcast_apply]
  exact congrArg (max _) Ideal.ofBits_zero_f32

/-- The second kernel's final step at (p, q): the accumulator plus the bias of column q. -/
theorem pay3_1_apply (acc : Vec Ideal S1024x1024 .f32) (b : Vec Ideal S1x1024 .f32) (p q : Fin 1024) :
    k1_pay3 acc b (ix2 p q) = acc (ix2 p q) + b (ix2 (0 : Fin 1) q) := by
  unfold k1_pay3
  simp only [shapeCast_self]
  rw [addf_apply, broadcastTo_1b_ab_apply]

/-! ## A sum over 4096 indices in four blocks of 1024 -/

/-- A sum over 4096 consecutive indices is the sum, over the four consecutive blocks of 1024, of the blocks' sums. -/
theorem sum_blocks (f : Fin 4096 → EReal) :
    ∑ e : Fin 4096, f e = ∑ k : Fin 4, ∑ d : Fin 1024, f ⟨1024 * k.val + d.val, by omega⟩ := by
  rw [← Fintype.sum_prod_type', ← Equiv.sum_comp (finProdFinEquiv (m := 4) (n := 1024))]
  refine Finset.sum_congr rfl fun x _ => congrArg f (Fin.ext ?_)
  show x.2.val + 1024 * x.1.val = 1024 * x.1.val + x.2.val
  omega

end Cert.KernelIdeal.Pay

end
-- ==== Proof.KI.R0Value.lean ====
/-
  What the first pallas_call leaves in its output array, entry by entry, at the ideal instance.

  The grid is 4 x 4 x 4: point (i, j, k) works on rows 1024 i .. of x, rows 1024 j .. of the gathered weight table and the
  k-th quarter of the contracted axis. The accumulator is reset at k = 0, grows by one quarter's partial products at every
  k, and at k = 3 the bias row is added, the sum is cut off below at zero and the block (i, j) of the output is stored.
  So entry (r, s) of the output is  max (sum over all 4096 d of x[r,d] * w[s,d] + b[0,s]) 0 : the four partial sums are
  one sum regrouped, which on the extended reals needs only that addition is commutative and associative.
-/
import proofs.«402536_j80994493268150_2_alg».proof.Proof.KI.R0Frame
import proofs.«402536_j80994493268150_2_alg».proof.Proof.PayIdeal
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat Cfg Window)

/-! ## What each kind of point leaves: the stores the body made, read back as its named values -/

section Pieces
variable {F : FTy → Type} [FloatOps F]

/-- The block offsets of every store and load of the body are zero on both axes. -/
theorem hz2_r0 : (![0, 0] : Fin 2 → Nat) = fun _ => 0 := funext fun a => by fin_cases a <;> rfl

/-- A point that resets: the accumulator is left at the zero block plus this point's block product. -/
theorem sout0_A_eq (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) :
    sout0_A c i arg3 harg3 arg4 harg4 arg5 harg5 arg6 harg6 arg7 harg7 hc0 hc1 x0 x1 x2 = k0_pay2 x0 (k0_pay1 (F := F)) x1 := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S1024x1024) hz2_r0, View.readCov_unit_zero (S := S1024x1024) _ hz2_r0]
  simp only [View.readAt_eq_ld, harg3.read_unread, harg4.read_unread, View.ld_unit_zero (S := S1024x1024) hz2_r0]

/-- A point that neither resets nor stores: the accumulator it finds plus this point's block product. -/
theorem sout0_B_eq (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs : Vec F S1024x1024 .f32) :
    sout0_B c i arg3 harg3 arg4 harg4 arg5 harg5 arg6 harg6 arg7 harg7 hc0 hc1 x0 x1 x2 xs = k0_pay2 x0 xs x1 := by
  unfold sout0_B
  rw [View.read_writes_eq_canon _ _ _ (scover0_B c i arg3 harg3 arg4 harg4 arg5 harg5 arg6 harg6 arg7 harg7 hc0 hc1 x0 x1 x2 xs)]
  unfold kernelRun0_B
  dsimp only
  sl_unfold_words
  rw [View.canon_unit_zero hz2_r0]
  simp only [View.readAt_eq_ld, harg3.read_unread, harg4.read_unread, harg7.read_unread, View.ld_unit_zero (S := S1024x1024) hz2_r0]

/-- A point that stores the output block: the accumulator is still the one it finds plus this point's block product. -/
theorem sout0_C_eq (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) :
    sout0_C c i arg3 harg3 arg4 harg4 arg5 harg5 arg6 harg6 arg7 harg7 hc0 hc1 x0 x1 x2 xs = k0_pay2 x0 xs x1 := by
  unfold sout0_C
  rw [View.read_writes_eq_canon _ _ _ (scover0_C c i arg3 harg3 arg4 harg4 arg5 harg5 arg6 harg6 arg7 harg7 hc0 hc1 x0 x1 x2 xs)]
  unfold kernelRun0_C
  dsimp only
  sl_unfold_words
  rw [View.canon_unit_zero hz2_r0]
  simp only [View.readAt_eq_ld, harg3.read_unread, harg4.read_unread, harg7.read_unread, View.ld_unit_zero (S := S1024x1024) hz2_r0]

/-- The output block it stores: the final step applied to that accumulator and the bias block. -/
theorem out0_C_eq (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs : Vec F S1024x1024 .f32) :
    out0_C c i arg3 harg3 arg4 harg4 arg5 harg5 arg6 harg6 arg7 harg7 hc0 hc1 x0 x1 x2 xs = k0_pay3 (k0_pay2 x0 xs x1) x2 := by
  unfold out0_C
  rw [View.read_writes_eq_canon _ _ _ (cover0_C c i arg3 harg3 arg4 harg4 arg5 harg5 arg6 harg6 arg7 harg7 hc0 hc1 x0 x1 x2 xs)]
  unfold kernelRun0_C
  dsimp only
  sl_unfold_words
  rw [View.canon_unit_zero hz2_r0]
  simp only [View.readAt_eq_ld, harg3.read_unread, harg4.read_unread, harg5.read_unread, harg7.read_unread,
    View.readCov_unit_zero (S := S1024x1024) _ hz2_r0, View.ld_unit_zero (S := S1024x1024) hz2_r0, View.ld_unit_zero (S := S1x1024) hz2_r0]

end Pieces

variable (V : (c : Dev nD) → (b : Ref sig .tc) → Buf (Elt Ideal) ((c : Thread nD τ).loc b))

/-- The arrays the region reads and the array it writes, each named at its literal type (extended reals at the ideal
    instance): x, the gathered weights, the bias row, and the output after the last grid point. -/
abbrev xarr0 (c : Dev nD) : S4096x4096.Idx → EReal := V c main_arg0
abbrev warr0 (c : Dev nD) : S4096x4096.Idx → EReal := V c main_v1
abbrev barr0 (c : Dev nD) : S1x4096.Idx → EReal := V c main_v3
abbrev oarr0 (c : Dev nD) : S4096x4096.Idx → EReal := (dat0 (F := Ideal) V c).arrAt 3 cfg0.N

/-! ## The blocks a point reads, at their literal types, and where they sit in their arrays -/

/-- The block of x, of the weights and of the bias row that grid point t reads. -/
abbrev xblk0 (c : Dev nD) (t : Fin cfg0.N) : Vec Ideal S1024x1024 .f32 := iblk0 V c 0 t
abbrev wblk0 (c : Dev nD) (t : Fin cfg0.N) : Vec Ideal S1024x1024 .bf16 := iblk0 V c 1 t
abbrev bblk0 (c : Dev nD) (t : Fin cfg0.N) : Vec Ideal S1x1024 .f32 := iblk0 V c 2 t

/-- The block indices of the four windows at point t = (i * 4 + j) * 4 + k: x at (i, k), the weights at (j, k), the
    bias row at (0, j), the output at (i, j). -/
theorem idx0_0 : ∀ t : Fin cfg0.N, win0_0.index t (0 : Fin 2) = t.val / 16 ∧ win0_0.index t (1 : Fin 2) = t.val % 4 :=
  (by decide +kernel : ∀ t : Fin grid0.N, _)
theorem idx0_1 : ∀ t : Fin cfg0.N, win0_1.index t (0 : Fin 2) = t.val / 4 % 4 ∧ win0_1.index t (1 : Fin 2) = t.val % 4 :=
  (by decide +kernel : ∀ t : Fin grid0.N, _)
theorem idx0_2 : ∀ t : Fin cfg0.N, win0_2.index t (0 : Fin 2) = 0 ∧ win0_2.index t (1 : Fin 2) = t.val / 4 % 4 :=
  (by decide +kernel : ∀ t : Fin grid0.N, _)
theorem idx0_3 : ∀ t : Fin cfg0.N, win0_3.index t (0 : Fin 2) = t.val / 16 ∧ win0_3.index t (1 : Fin 2) = t.val / 4 % 4 :=
  (by decide +kernel : ∀ t : Fin grid0.N, _)

/-- Entry (p, d) of the x block at point t is x at row 1024 (t / 16) + p, column 1024 (t % 4) + d. -/
theorem xblk0_apply (c : Dev nD) (t : Fin cfg0.N) (p d : Fin 1024) (R D : Fin 4096)
    (hR : R.val = 1024 * (t.val / 16) + p.val) (hD : D.val = 1024 * (t.val % 4) + d.val) :
    xblk0 V c t (ix2 p d) = xarr0 V c (ix2 R D) := by
  unfold xblk0 iblk0
  rw [View.read_apply]
  show V c main_arg0 _ = V c main_arg0 _
  congr 1
  funext a
  apply Fin.ext
  match a with
  | ⟨0, _⟩ => show win0_0.index t (0 : Fin 2) * 1024 + 1 * p.val = R.val; rw [(idx0_0 t).1, hR]; omega
  | ⟨1, _⟩ => show win0_0.index t (1 : Fin 2) * 1024 + 1 * d.val = D.val; rw [(idx0_0 t).2, hD]; omega

/-- Entry (q, d) of the weight block at point t is the weight at row 1024 (t / 4 % 4) + q, column 1024 (t % 4) + d. -/
theorem wblk0_apply (c : Dev nD) (t : Fin cfg0.N) (q d : Fin 1024) (S D : Fin 4096)
    (hS : S.val = 1024 * (t.val / 4 % 4) + q.val) (hD : D.val = 1024 * (t.val % 4) + d.val) :
    wblk0 V c t (ix2 q d) = warr0 V c (ix2 S D) := by
  unfold wblk0 iblk0
  rw [View.read_apply]
  show V c main_v1 _ = V c main_v1 _
  congr 1
  funext a
  apply Fin.ext
  match a with
  | ⟨0, _⟩ => show win0_1.index t (0 : Fin 2) * 1024 + 1 * q.val = S.val; rw [(idx0_1 t).1, hS]; omega
  | ⟨1, _⟩ => show win0_1.index t (1 : Fin 2) * 1024 + 1 * d.val = D.val; rw [(idx0_1 t).2, hD]; omega

/-- Entry (0, q) of the bias block at point t is the bias of column 1024 (t / 4 % 4) + q. -/
theorem bblk0_apply (c : Dev nD) (t : Fin cfg0.N) (q : Fin 1024) (S : Fin 4096)
    (hS : S.val = 1024 * (t.val / 4 % 4) + q.val) :
    bblk0 V c t (ix2 (0 : Fin 1) q) = barr0 V c (ix2 (0 : Fin 1) S) := by
  unfold bblk0 iblk0
  rw [View.read_apply]
  show V c main_v3 _ = V c main_v3 _
  congr 1
  funext a
  apply Fin.ext
  match a with
  | ⟨0, _⟩ => show win0_2.index t (0 : Fin 2) * 1 + 1 * 0 = 0; rw [(idx0_2 t).1]
  | ⟨1, _⟩ => show win0_2.index t (1 : Fin 2) * 1024 + 1 * q.val = S.val; rw [(idx0_2 t).2, hS]; omega

/-! ## The accumulator and the output block, point by point -/

theorem N0_eq : cfg0.N = 64 := N_0

/-- After a point that resets, the accumulator is the zero block plus that point's block product. -/
theorem acc0_reset (c : Dev nD) (n : ℕ) (hn : n < cfg0.N) (h0 : n % 4 = 0) :
    (outsAt0 V c n hn).2 = k0_pay2 (xblk0 V c ⟨n, hn⟩) (k0_pay1 (F := Ideal)) (wblk0 V c ⟨n, hn⟩) := by
  have h1 : ¬(⟨n, hn⟩ : Fin cfg0.N).val % 4 = 3 := by dsimp only; omega
  rw [outsAt0_A V c ⟨n, hn⟩ h0 h1]
  dsimp only
  exact sout0_A_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) ((hcond0_0 ⟨n, hn⟩).mpr h0) (fun h => h1 ((hcond0_1 ⟨n, hn⟩).mp h)) (iblk0 V c 0 ⟨n, hn⟩) (iblk0 V c 1 ⟨n, hn⟩) (iblk0 V c 2 ⟨n, hn⟩)

/-- After any later point of a run of four, the accumulator is what the point before left plus this point's block
    product. -/
theorem acc0_step (c : Dev nD) (n : ℕ) (hn : n + 1 < cfg0.N) (h0 : ¬(n + 1) % 4 = 0) :
    (outsAt0 V c (n + 1) hn).2
      = k0_pay2 (xblk0 V c ⟨n + 1, hn⟩) (outsAt0 V c n (Nat.lt_of_succ_lt hn)).2 (wblk0 V c ⟨n + 1, hn⟩) := by
  by_cases h1 : (n + 1) % 4 = 3
  · rw [outsAt0_C V c ⟨n + 1, hn⟩ h0 h1]
    dsimp only
    exact sout0_C_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 V c n (Nat.lt_of_succ_lt hn)).2
  · rw [outsAt0_B V c ⟨n + 1, hn⟩ h0 h1]
    dsimp only
    exact sout0_B_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 V c n (Nat.lt_of_succ_lt hn)).2

/-- The output block a last point of a run of four stores: the final step on the accumulator it leaves and its bias
    block. -/
theorem out0_store (c : Dev nD) (n : ℕ) (hn : n + 1 < cfg0.N) (h1 : (n + 1) % 4 = 3) :
    (outsAt0 V c (n + 1) hn).1
      = k0_pay3 (k0_pay2 (xblk0 V c ⟨n + 1, hn⟩) (outsAt0 V c n (Nat.lt_of_succ_lt hn)).2 (wblk0 V c ⟨n + 1, hn⟩)) (bblk0 V c ⟨n + 1, hn⟩) := by
  have h0 : ¬(n + 1) % 4 = 0 := by omega
  rw [outsAt0_C V c ⟨n + 1, hn⟩ h0 h1]
  dsimp only
  exact out0_C_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 V c n (Nat.lt_of_succ_lt hn)).2

/-- So the block stored at the last point n + 3 of the run that starts at n: the four block products added in point order
    onto the zero block, then the final step. -/
theorem out0_run (c : Dev nD) (n : ℕ) (hn : n + 3 < cfg0.N) (h0 : n % 4 = 0) :
    (outsAt0 V c (n + 3) hn).1
      = k0_pay3 (k0_pay2 (xblk0 V c ⟨n + 3, hn⟩)
          (k0_pay2 (xblk0 V c ⟨n + 2, by omega⟩)
            (k0_pay2 (xblk0 V c ⟨n + 1, by omega⟩)
              (k0_pay2 (xblk0 V c ⟨n, by omega⟩) (k0_pay1 (F := Ideal)) (wblk0 V c ⟨n, by omega⟩))
              (wblk0 V c ⟨n + 1, by omega⟩))
            (wblk0 V c ⟨n + 2, by omega⟩))
          (wblk0 V c ⟨n + 3, hn⟩)) (bblk0 V c ⟨n + 3, hn⟩) := by
  rw [out0_store V c (n + 2) hn (by omega), acc0_step V c (n + 1) (by omega) (by omega), acc0_step V c n (by omega) (by omega),
    acc0_reset V c n (by omega) h0]

/-! ## One entry of a stored block, over the whole arrays -/

/-- The stored block at (p, q), over any four pairs of blocks: the four quarter sums added in point order, the bias,
    the cut at zero. -/
theorem run0_apply (x0 x1 x2 x3 : Vec Ideal S1024x1024 .f32) (w0 w1 w2 w3 : Vec Ideal S1024x1024 .bf16)
    (b : Vec Ideal S1x1024 .f32) (p q : Fin 1024) :
    k0_pay3 (k0_pay2 x3 (k0_pay2 x2 (k0_pay2 x1 (k0_pay2 x0 (k0_pay1 (F := Ideal)) w0) w1) w2) w3) b (ix2 p q)
      = max ((∑ d : Fin 1024, x0 (ix2 p d) * w0 (ix2 q d)) + (∑ d : Fin 1024, x1 (ix2 p d) * w1 (ix2 q d))
              + (∑ d : Fin 1024, x2 (ix2 p d) * w2 (ix2 q d)) + (∑ d : Fin 1024, x3 (ix2 p d) * w3 (ix2 q d))
              + b (ix2 (0 : Fin 1) q)) 0 := by
  rw [Pay.pay3_0_apply, Pay.pay2_0_apply, Pay.pay2_0_apply, Pay.pay2_0_apply, Pay.pay2_0_apply, Pay.pay1_0_apply, zero_add]

/-- Entry (p, q) of the block stored at the last point n + 3 of the run that starts at n, over the whole arrays: row
    R = 1024 (n / 16) + p of x against row S = 1024 (n / 4 % 4) + q of the weights over all 4096 columns — the four
    quarter sums are the one sum split into consecutive blocks —, plus the bias of column S, cut off at zero. -/
theorem out0_entry (c : Dev nD) (n : ℕ) (hn : n + 3 < cfg0.N) (h0 : n % 4 = 0) (p q : Fin 1024) (R S : Fin 4096)
    (hR : R.val = 1024 * (n / 16) + p.val) (hS : S.val = 1024 * (n / 4 % 4) + q.val) :
    (outsAt0 V c (n + 3) hn).1 (ix2 p q)
      = max ((∑ d : Fin 4096, xarr0 V c (ix2 R d) * warr0 V c (ix2 S d)) + barr0 V c (ix2 (0 : Fin 1) S)) 0 := by
  have hN : cfg0.N = 64 := N0_eq
  have hp := p.isLt
  have hq := q.isLt
  have q0 : (∑ d : Fin 1024, xblk0 V c ⟨n, by omega⟩ (ix2 p d) * wblk0 V c ⟨n, by omega⟩ (ix2 q d))
      = ∑ d : Fin 1024, xarr0 V c (ix2 R ⟨1024 * (0 : Fin 4).val + d.val, by have := d.isLt; have : ((0 : Fin 4).val) = 0 := rfl; omega⟩) * warr0 V c (ix2 S ⟨1024 * (0 : Fin 4).val + d.val, by have := d.isLt; have : ((0 : Fin 4).val) = 0 := rfl; omega⟩) :=
    Finset.sum_congr rfl fun d _ => by
      have hk : ((0 : Fin 4).val) = 0 := rfl
      rw [xblk0_apply V c ⟨n, by omega⟩ p d R ⟨1024 * (0 : Fin 4).val + d.val, by have := d.isLt; omega⟩ (by dsimp only; omega) (by dsimp only; omega),
        wblk0_apply V c ⟨n, by omega⟩ q d S ⟨1024 * (0 : Fin 4).val + d.val, by have := d.isLt; omega⟩ (by dsimp only; omega) (by dsimp only; omega)]
  have q1 : (∑ d : Fin 1024, xblk0 V c ⟨n + 1, by omega⟩ (ix2 p d) * wblk0 V c ⟨n + 1, by omega⟩ (ix2 q d))
      = ∑ d : Fin 1024, xarr0 V c (ix2 R ⟨1024 * (1 : Fin 4).val + d.val, by have := d.isLt; have : ((1 : Fin 4).val) = 1 := rfl; omega⟩) * warr0 V c (ix2 S ⟨1024 * (1 : Fin 4).val + d.val, by have := d.isLt; have : ((1 : Fin 4).val) = 1 := rfl; omega⟩) :=
    Finset.sum_congr rfl fun d _ => by
      have hk : ((1 : Fin 4).val) = 1 := rfl
      rw [xblk0_apply V c ⟨n + 1, by omega⟩ p d R ⟨1024 * (1 : Fin 4).val + d.val, by have := d.isLt; omega⟩ (by dsimp only; omega) (by dsimp only; omega),
        wblk0_apply V c ⟨n + 1, by omega⟩ q d S ⟨1024 * (1 : Fin 4).val + d.val, by have := d.isLt; omega⟩ (by dsimp only; omega) (by dsimp only; omega)]
  have q2 : (∑ d : Fin 1024, xblk0 V c ⟨n + 2, by omega⟩ (ix2 p d) * wblk0 V c ⟨n + 2, by omega⟩ (ix2 q d))
      = ∑ d : Fin 1024, xarr0 V c (ix2 R ⟨1024 * (2 : Fin 4).val + d.val, by have := d.isLt; have : ((2 : Fin 4).val) = 2 := rfl; omega⟩) * warr0 V c (ix2 S ⟨1024 * (2 : Fin 4).val + d.val, by have := d.isLt; have : ((2 : Fin 4).val) = 2 := rfl; omega⟩) :=
    Finset.sum_congr rfl fun d _ => by
      have hk : ((2 : Fin 4).val) = 2 := rfl
      rw [xblk0_apply V c ⟨n + 2, by omega⟩ p d R ⟨1024 * (2 : Fin 4).val + d.val, by have := d.isLt; omega⟩ (by dsimp only; omega) (by dsimp only; omega),
        wblk0_apply V c ⟨n + 2, by omega⟩ q d S ⟨1024 * (2 : Fin 4).val + d.val, by have := d.isLt; omega⟩ (by dsimp only; omega) (by dsimp only; omega)]
  have q3 : (∑ d : Fin 1024, xblk0 V c ⟨n + 3, by omega⟩ (ix2 p d) * wblk0 V c ⟨n + 3, by omega⟩ (ix2 q d))
      = ∑ d : Fin 1024, xarr0 V c (ix2 R ⟨1024 * (3 : Fin 4).val + d.val, by have := d.isLt; have : ((3 : Fin 4).val) = 3 := rfl; omega⟩) * warr0 V c (ix2 S ⟨1024 * (3 : Fin 4).val + d.val, by have := d.isLt; have : ((3 : Fin 4).val) = 3 := rfl; omega⟩) :=
    Finset.sum_congr rfl fun d _ => by
      have hk : ((3 : Fin 4).val) = 3 := rfl
      rw [xblk0_apply V c ⟨n + 3, by omega⟩ p d R ⟨1024 * (3 : Fin 4).val + d.val, by have := d.isLt; omega⟩ (by dsimp only; omega) (by dsimp only; omega),
        wblk0_apply V c ⟨n + 3, by omega⟩ q d S ⟨1024 * (3 : Fin 4).val + d.val, by have := d.isLt; omega⟩ (by dsimp only; omega) (by dsimp only; omega)]
  rw [out0_run V c n hn h0, run0_apply, q0, q1, q2, q3,
    bblk0_apply V c ⟨n + 3, hn⟩ q S (by dsimp only; omega),
    Pay.sum_blocks (fun d => xarr0 V c (ix2 R d) * warr0 V c (ix2 S d)), Fin.sum_univ_four]

/-! ## From the stored blocks to the array -/

/-- The output array as one function of the three input arrays, entry by entry. -/
def G0 (c : Dev nD) : S4096x4096.Idx → EReal := fun i =>
  max ((∑ d : Fin 4096, xarr0 V c (ix2 (i 0) d) * warr0 V c (ix2 (i 1) d)) + barr0 V c (ix2 (0 : Fin 1) (i 1))) 0

/-- What a point that writes the output block back writes is its block of that function: the point is the last of its run
    of four, and entry (p, q) of block (t / 16, t / 4 % 4) is entry (1024 (t / 16) + p, 1024 (t / 4 % 4) + q) of the array. -/
theorem flushed0_eq (c : Dev nD) (t : Fin cfg0.N) (hf : (cfg0.win 3).flush t = true) :
    (dat0 (F := Ideal) V c).flushed 3 t = ((cfg0.win 3).blk t).view.read (Elt Ideal) (G0 V c) := by
  have hN : cfg0.N = 64 := N0_eq
  have h3 : t.val % 4 = 3 := (flush0_3 t).mp hf
  obtain ⟨tv, ht⟩ := t
  obtain ⟨n, rfl⟩ : ∃ n, tv = n + 3 := ⟨tv - 3, by dsimp only at h3; omega⟩
  have h0 : n % 4 = 0 := by dsimp only at h3; omega
  show (cfg0.win 3).cut (grid0.coords ⟨n + 3, ht⟩) ((dat0 (F := Ideal) V c).after 3 ⟨n + 3, ht⟩) = _
  rw [after0_3]
  funext j
  have hj0 : (j 0).val < 1024 := (j 0).isLt
  have hj1 : (j 1).val < 1024 := (j 1).isLt
  show (outsAt0 V c (n + 3) ht).1 ((cfg0.win 3).xinj (grid0.coords ⟨n + 3, ht⟩) j)
    = G0 V c (((cfg0.win 3).blk ⟨n + 3, ht⟩).view.emb j)
  have ej : (cfg0.win 3).xinj (grid0.coords ⟨n + 3, ht⟩) j = ix2 (⟨(j 0).val, hj0⟩ : Fin 1024) (⟨(j 1).val, hj1⟩ : Fin 1024) :=
    funext fun a => by match a with | ⟨0, _⟩ => rfl | ⟨1, _⟩ => rfl
  have hR : ((((cfg0.win 3).blk ⟨n + 3, ht⟩).view.emb j) 0 : Fin 4096).val = 1024 * (n / 16) + (j 0).val := by
    show win0_3.index ⟨n + 3, ht⟩ (0 : Fin 2) * 1024 + 1 * (j 0).val = _
    rw [(idx0_3 ⟨n + 3, ht⟩).1]; dsimp only; omega
  have hS : ((((cfg0.win 3).blk ⟨n + 3, ht⟩).view.emb j) 1 : Fin 4096).val = 1024 * (n / 4 % 4) + (j 1).val := by
    show win0_3.index ⟨n + 3, ht⟩ (1 : Fin 2) * 1024 + 1 * (j 1).val = _
    rw [(idx0_3 ⟨n + 3, ht⟩).2]; dsimp only; omega
  rw [ej]
  exact out0_entry V c n ht h0 ⟨(j 0).val, hj0⟩ ⟨(j 1).val, hj1⟩ _ _ hR hS

/-- An entry of the array is in point t's output block iff each coordinate is in the block's range on its axis. -/
theorem mem_blk0 (t : Fin cfg0.N) (i : S4096x4096.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Every entry of the output array lies in the block of some point that writes back: entry (r, s) in that of the last
    point of the run of block (r / 1024, s / 1024). -/
theorem cover0 (i : S4096x4096.Idx) :
    ∃ t : Fin cfg0.N, (cfg0.win 3).flush t = true ∧ i ∈ ((cfg0.win 3).blk t).view.set := by
  have hN : cfg0.N = 64 := N0_eq
  have hi0 : (i 0).val < 4096 := (i 0).isLt
  have hi1 : (i 1).val < 4096 := (i 1).isLt
  have hT : ((i 0).val / 1024 * 4 + (i 1).val / 1024) * 4 + 3 < cfg0.N := by omega
  refine ⟨⟨((i 0).val / 1024 * 4 + (i 1).val / 1024) * 4 + 3, hT⟩, (flush0_3 _).mpr (by dsimp only; omega), ?_⟩
  rw [mem_blk0]
  intro a
  match a with
  | ⟨0, _⟩ =>
    show win0_3.index ⟨((i 0).val / 1024 * 4 + (i 1).val / 1024) * 4 + 3, hT⟩ (0 : Fin 2) * 1024 ≤ (i 0).val
      ∧ (i 0).val < win0_3.index ⟨((i 0).val / 1024 * 4 + (i 1).val / 1024) * 4 + 3, hT⟩ (0 : Fin 2) * 1024 + 1024
    rw [(idx0_3 ⟨((i 0).val / 1024 * 4 + (i 1).val / 1024) * 4 + 3, hT⟩).1]; dsimp only; omega
  | ⟨1, _⟩ =>
    show win0_3.index ⟨((i 0).val / 1024 * 4 + (i 1).val / 1024) * 4 + 3, hT⟩ (1 : Fin 2) * 1024 ≤ (i 1).val
      ∧ (i 1).val < win0_3.index ⟨((i 0).val / 1024 * 4 + (i 1).val / 1024) * 4 + 3, hT⟩ (1 : Fin 2) * 1024 + 1024
    rw [(idx0_3 ⟨((i 0).val / 1024 * 4 + (i 1).val / 1024) * 4 + 3, hT⟩).2]; dsimp only; omega

/-- So the output array ends holding that function. -/
theorem oarr0_eq (c : Dev nD) : oarr0 V c = G0 V c :=
  (dat0 (F := Ideal) V c).arrAt_eq_of_cover 3 (G0 V c) (flushed0_eq V c) cover0

/-- Entry (r, s) of the first pallas_call's output array after the region: row r of x against row s of the weights
    (a contraction over the second axis of both), plus the bias of column s, cut off below at zero. -/
theorem final0 (c : Dev nD) (r s : Fin 4096) :
    oarr0 V c (ix2 r s)
      = max ((∑ d : Fin 4096, xarr0 V c (ix2 r d) * warr0 V c (ix2 s d)) + barr0 V c (ix2 0 s)) 0 := by
  rw [oarr0_eq V c]
  rfl

end Cert.KernelIdeal.Hand

end
-- ==== Proof.KI.R1Value.lean ====
/-
  What the second pallas_call leaves in its output array, entry by entry, at the ideal instance.

  The grid is 4 x 4 x 4: point (i, j, k) works on rows 1024 i .. of h, columns 1024 j .. of the gathered weight table and
  the k-th quarter of the contracted axis. The accumulator is reset at k = 0, grows by one quarter's partial products at
  every k, and at k = 3 the bias row is added and the block (i, j) of the output is stored. So entry (r, o) of the output
  is  sum over all 4096 k of h[r,k] * w[k,o] + b[0,o] : the four partial sums are one sum regrouped.
-/
import proofs.«402536_j80994493268150_2_alg».proof.Proof.KI.R1Frame
import proofs.«402536_j80994493268150_2_alg».proof.Proof.PayIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat Cfg Window)

/-! ## What each kind of point leaves, as the body's payloads -/

section Pieces
variable {F : FTy → Type} [FloatOps F]

/-- The offsets of every load and store of the body are zero on both axes. -/
theorem hz_r1 : (![0, 0] : Fin 2 → Nat) = fun _ => 0 := funext fun a => by fin_cases a <;> rfl

/-- A point that neither resets nor stores leaves in the accumulator the accumulate step of what it found there and its
    two input blocks. -/
theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) :
    sout1_B c i arg3 harg3 arg4 harg4 arg5 harg5 arg6 harg6 arg7 harg7 hc0 hc1 x0 x1 x2 xs = k1_pay2 xs x0 x1 := by
  unfold sout1_B
  rw [View.read_writes_eq_canon _ _ _ (scover1_B c i arg3 harg3 arg4 harg4 arg5 harg5 arg6 harg6 arg7 harg7 hc0 hc1 x0 x1 x2 xs)]
  unfold kernelRun1_B
  dsimp only
  sl_unfold_words
  rw [View.canon_unit_zero hz_r1]
  simp only [View.readAt_eq_ld, harg7.read_unread, harg3.read_unread, harg4.read_unread, View.ld_unit_zero (S := S1024x1024) hz_r1]

/-- A point that resets leaves in the accumulator the accumulate step of the zero block and its two input blocks. -/
theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    sout1_A c i arg3 harg3 arg4 harg4 arg5 harg5 arg6 harg6 arg7 harg7 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x1024) hz_r1, View.readCov_unit_zero (S := S1024x1024) _ hz_r1]
  simp only [View.readAt_eq_ld, harg3.read_unread, harg4.read_unread, View.ld_unit_zero (S := S1024x1024) hz_r1]

/-- A point that stores leaves in the accumulator the same accumulate step. -/
theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) :
    sout1_C c i arg3 harg3 arg4 harg4 arg5 harg5 arg6 harg6 arg7 harg7 hc0 hc1 x0 x1 x2 xs = k1_pay2 xs x0 x1 := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  sl_unfold_words
  rw [View.canon_unit_zero hz_r1]
  simp only [View.readAt_eq_ld, harg7.read_unread, harg3.read_unread, harg4.read_unread, View.ld_unit_zero (S := S1024x1024) hz_r1]

/-- The output block it stores: the final step applied to that accumulator and the bias block. -/
theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) :
    out1_C c i arg3 harg3 arg4 harg4 arg5 harg5 arg6 harg6 arg7 harg7 hc0 hc1 x0 x1 x2 xs = k1_pay3 (k1_pay2 xs x0 x1) x2 := by
  unfold out1_C
  rw [View.read_writes_eq_canon _ _ _ (cover1_C c i arg3 harg3 arg4 harg4 arg5 harg5 arg6 harg6 arg7 harg7 hc0 hc1 x0 x1 x2 xs)]
  unfold kernelRun1_C
  dsimp only
  sl_unfold_words
  rw [View.canon_unit_zero hz_r1, View.readCov_unit_zero (S := S1024x1024) _ hz_r1]
  simp only [View.readAt_eq_ld, harg7.read_unread, harg3.read_unread, harg4.read_unread, harg5.read_unread, View.ld_unit_zero (S := S1024x1024) hz_r1, View.ld_unit_zero (S := S1x1024) hz_r1]

end Pieces

/-! ## The blocks as parts of the arrays, and the accumulator point by point -/

variable (V : (c : Dev nD) → (b : Ref sig .tc) → Buf (Elt Ideal) ((c : Thread nD τ).loc b))

/-- The arrays the region reads and the array it writes, each named at its literal type (extended reals at the ideal
    instance): h, the gathered weights, the bias row, and the output after the last grid point. -/
abbrev harr1 (c : Dev nD) : S4096x4096.Idx → EReal := V c main_v7
abbrev warr1 (c : Dev nD) : S4096x4096.Idx → EReal := V c main_v5
abbrev barr1 (c : Dev nD) : S1x4096.Idx → EReal := V c main_v6
abbrev oarr1 (c : Dev nD) : S4096x4096.Idx → EReal := (dat1 (F := Ideal) V c).arrAt 3 cfg1.N

/-- The blocks the three input windows hold at a grid point, at their literal types. -/
abbrev hblk1 (c : Dev nD) (t : Fin cfg1.N) : S1024x1024.Idx → EReal := iblk1 V c 0 t
abbrev wblk1 (c : Dev nD) (t : Fin cfg1.N) : S1024x1024.Idx → EReal := iblk1 V c 1 t
abbrev bblk1 (c : Dev nD) (t : Fin cfg1.N) : S1x1024.Idx → EReal := iblk1 V c 2 t

/-- What the accumulator and the output block hold after the point at position n. -/
abbrev accAt1 (c : Dev nD) (n : ℕ) (hn : n < cfg1.N) : S1024x1024.Idx → EReal := (outsAt1 V c n hn).2
abbrev outAt1 (c : Dev nD) (n : ℕ) (hn : n < cfg1.N) : S1024x1024.Idx → EReal := (outsAt1 V c n hn).1

/-- The block indices of the four windows at point t = (i * 4 + j) * 4 + k: h at (i, k), the weights at (k, j), the bias
    at (0, j), the output at (i, j). -/
theorem idx1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- Entry (p, d) of the h block at point t is h at row 1024 i + p, column 1024 k + d. -/
theorem hblk1_apply (c : Dev nD) (t : Fin cfg1.N) (p d : Fin 1024) (r k : Fin 4096)
    (hr : r.val = 1024 * (t.val / 16) + p.val) (hk : k.val = 1024 * (t.val % 4) + d.val) :
    hblk1 V c t (ix2 p d) = harr1 V c (ix2 r k) := by
  obtain ⟨e0, e1, -⟩ := idx1 t
  show iblk1 V c 0 t (ix2 p d) = V c main_v7 (ix2 r k)
  unfold iblk1
  rw [View.read_apply]
  show V c main_v7 _ = V c main_v7 _
  congr 1
  funext a
  apply Fin.ext
  match a with
  | ⟨0, _⟩ => show win1_0.index t 0 * 1024 + 1 * p.val = r.val; rw [e0, hr]; omega
  | ⟨1, _⟩ => show win1_0.index t 1 * 1024 + 1 * d.val = k.val; rw [e1, hk]; omega

/-- Entry (d, q) of the weight block at point t is the weight at row 1024 k + d, column 1024 j + q. -/
theorem wblk1_apply (c : Dev nD) (t : Fin cfg1.N) (d q : Fin 1024) (k o : Fin 4096)
    (hk : k.val = 1024 * (t.val % 4) + d.val) (ho : o.val = 1024 * (t.val / 4 % 4) + q.val) :
    wblk1 V c t (ix2 d q) = warr1 V c (ix2 k o) := by
  obtain ⟨-, -, e2, e3, -⟩ := idx1 t
  show iblk1 V c 1 t (ix2 d q) = V c main_v5 (ix2 k o)
  unfold iblk1
  rw [View.read_apply]
  show V c main_v5 _ = V c main_v5 _
  congr 1
  funext a
  apply Fin.ext
  match a with
  | ⟨0, _⟩ => show win1_1.index t 0 * 1024 + 1 * d.val = k.val; rw [e2, hk]; omega
  | ⟨1, _⟩ => show win1_1.index t 1 * 1024 + 1 * q.val = o.val; rw [e3, ho]; omega

/-- Entry (0, q) of the bias block at point t is the bias of column 1024 j + q. -/
theorem bblk1_apply (c : Dev nD) (t : Fin cfg1.N) (q : Fin 1024) (o : Fin 4096)
    (ho : o.val = 1024 * (t.val / 4 % 4) + q.val) :
    bblk1 V c t (ix2 (0 : Fin 1) q) = barr1 V c (ix2 (0 : Fin 1) o) := by
  obtain ⟨-, -, -, -, e4, e5, -⟩ := idx1 t
  show iblk1 V c 2 t (ix2 (0 : Fin 1) q) = V c main_v6 (ix2 (0 : Fin 1) o)
  unfold iblk1
  rw [View.read_apply]
  show V c main_v6 _ = V c main_v6 _
  congr 1
  funext a
  apply Fin.ext
  match a with
  | ⟨0, _⟩ => show win1_2.index t 0 * 1 + 1 * (0 : Fin 1).val = (0 : Fin 1).val; rw [e4]; rfl
  | ⟨1, _⟩ => show win1_2.index t 1 * 1024 + 1 * q.val = o.val; rw [e5, ho]; omega

/-- A point that resets leaves in the accumulator, at (p, q), zero plus its block product there. -/
theorem acc1_A (c : Dev nD) (n : ℕ) (hn : n < cfg1.N) (h0 : n % 4 = 0) (p q : Fin 1024) :
    accAt1 V c n hn (ix2 p q) = 0 + ∑ d : Fin 1024, hblk1 V c ⟨n, hn⟩ (ix2 p d) * wblk1 V c ⟨n, hn⟩ (ix2 d q) := by
  have h1 : ¬n % 4 = 3 := by omega
  have e : outsAt1 V c n hn = _ := outsAt1_A V c ⟨n, hn⟩ h0 h1
  show (outsAt1 V c n hn).2 (ix2 p q) = _
  rw [e]
  dsimp only
  refine (congrFun (sout1_A_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) ((hcond1_0 ⟨n, hn⟩).mpr h0) (fun h => h1 ((hcond1_1 ⟨n, hn⟩).mp h)) (hblk1 V c ⟨n, hn⟩) (wblk1 V c ⟨n, hn⟩) (bblk1 V c ⟨n, hn⟩)) (ix2 p q)).trans ?_
  refine (Pay.pay2_1_apply (k1_pay1 (F := Ideal)) (hblk1 V c ⟨n, hn⟩) (wblk1 V c ⟨n, hn⟩) p q).trans ?_
  exact congrArg (· + ∑ d : Fin 1024, hblk1 V c ⟨n, hn⟩ (ix2 p d) * wblk1 V c ⟨n, hn⟩ (ix2 d q)) (Pay.pay1_1_apply (ix2 p q))

/-- A point that neither resets nor stores adds its block product to what the point before left. -/
theorem acc1_B (c : Dev nD) (n : ℕ) (hn : n < cfg1.N) (h0 : ¬n % 4 = 0) (h1 : ¬n % 4 = 3) (p q : Fin 1024) :
    accAt1 V c n hn (ix2 p q)
      = accAt1 V c (n - 1) (Nat.lt_of_le_of_lt (Nat.sub_le _ _) hn) (ix2 p q)
        + ∑ d : Fin 1024, hblk1 V c ⟨n, hn⟩ (ix2 p d) * wblk1 V c ⟨n, hn⟩ (ix2 d q) := by
  have e : outsAt1 V c n hn = _ := outsAt1_B V c ⟨n, hn⟩ h0 h1
  show (outsAt1 V c n hn).2 (ix2 p q) = _
  rw [e]
  dsimp only
  refine (congrFun (sout1_B_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) (fun h => h1 ((hcond1_1 ⟨n, hn⟩).mp h)) (hblk1 V c ⟨n, hn⟩) (wblk1 V c ⟨n, hn⟩) (bblk1 V c ⟨n, hn⟩) (accAt1 V c (n - 1) (Nat.lt_of_le_of_lt (Nat.sub_le _ _) hn))) (ix2 p q)).trans ?_
  exact Pay.pay2_1_apply (accAt1 V c (n - 1) (Nat.lt_of_le_of_lt (Nat.sub_le _ _) hn)) (hblk1 V c ⟨n, hn⟩) (wblk1 V c ⟨n, hn⟩) p q

/-- A point that stores leaves in the output block, at (p, q), what the point before left in the accumulator plus its
    block product plus the bias of column q. -/
theorem out1_Cv (c : Dev nD) (n : ℕ) (hn : n < cfg1.N) (h1 : n % 4 = 3) (p q : Fin 1024) :
    outAt1 V c n hn (ix2 p q)
      = (accAt1 V c (n - 1) (Nat.lt_of_le_of_lt (Nat.sub_le _ _) hn) (ix2 p q)
          + ∑ d : Fin 1024, hblk1 V c ⟨n, hn⟩ (ix2 p d) * wblk1 V c ⟨n, hn⟩ (ix2 d q))
        + bblk1 V c ⟨n, hn⟩ (ix2 (0 : Fin 1) q) := by
  have h0 : ¬n % 4 = 0 := by omega
  have e : outsAt1 V c n hn = _ := outsAt1_C V c ⟨n, hn⟩ h0 h1
  show (outsAt1 V c n hn).1 (ix2 p q) = _
  rw [e]
  dsimp only
  refine (congrFun (out1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) ((hcond1_1 ⟨n, hn⟩).mpr h1) (hblk1 V c ⟨n, hn⟩) (wblk1 V c ⟨n, hn⟩) (bblk1 V c ⟨n, hn⟩) (accAt1 V c (n - 1) (Nat.lt_of_le_of_lt (Nat.sub_le _ _) hn))) (ix2 p q)).trans ?_
  refine (Pay.pay3_1_apply (k1_pay2 (F := Ideal) (accAt1 V c (n - 1) (Nat.lt_of_le_of_lt (Nat.sub_le _ _) hn)) (hblk1 V c ⟨n, hn⟩) (wblk1 V c ⟨n, hn⟩)) (bblk1 V c ⟨n, hn⟩) p q).trans ?_
  exact congrArg (· + bblk1 V c ⟨n, hn⟩ (ix2 (0 : Fin 1) q)) (Pay.pay2_1_apply (accAt1 V c (n - 1) (Nat.lt_of_le_of_lt (Nat.sub_le _ _) hn)) (hblk1 V c ⟨n, hn⟩) (wblk1 V c ⟨n, hn⟩) p q)

/-! ## The four quarters are the whole contraction; the storing points tile the output -/

/-- The closed form of the output array: at index i, row i 0 of h against column i 1 of the weights, plus the bias of
    column i 1. -/
abbrev G1 (c : Dev nD) : S4096x4096.Idx → EReal := fun i =>
  (∑ k : Fin 4096, harr1 V c (ix2 (i 0) k) * warr1 V c (ix2 k (i 1))) + barr1 V c (ix2 (0 : Fin 1) (i 1))

/-- The s-th quarter of the contraction at the output index i. -/
def quarter1 (c : Dev nD) (i : S4096x4096.Idx) (s : ℕ) (hs : s < 4) : EReal :=
  ∑ d : Fin 1024, harr1 V c (ix2 (i 0) ⟨1024 * s + d.val, by have := d.isLt; omega⟩)
    * warr1 V c (ix2 ⟨1024 * s + d.val, by have := d.isLt; omega⟩ (i 1))

/-- The whole contraction is its four quarters added. -/
theorem sum_quarters1 (c : Dev nD) (i : S4096x4096.Idx) :
    (∑ k : Fin 4096, harr1 V c (ix2 (i 0) k) * warr1 V c (ix2 k (i 1)))
      = quarter1 V c i 0 (by omega) + quarter1 V c i 1 (by omega) + quarter1 V c i 2 (by omega) + quarter1 V c i 3 (by omega) := by
  rw [Pay.sum_blocks (fun k => harr1 V c (ix2 (i 0) k) * warr1 V c (ix2 k (i 1))), Fin.sum_univ_four]
  rfl

/-- The block product of the point at position m, at (p, q), is the quarter m % 4 of the contraction at the output
    index whose row is 1024 (m / 16) + p and whose column is 1024 (m / 4 % 4) + q. -/
theorem blockprod1 (c : Dev nD) (m : ℕ) (hm : m < cfg1.N) (p q : Fin 1024) (i : S4096x4096.Idx)
    (hi0 : (i 0).val = 1024 * (m / 16) + p.val) (hi1 : (i 1).val = 1024 * (m / 4 % 4) + q.val)
    (s : ℕ) (hs : s < 4) (hms : m % 4 = s) :
    (∑ d : Fin 1024, hblk1 V c ⟨m, hm⟩ (ix2 p d) * wblk1 V c ⟨m, hm⟩ (ix2 d q)) = quarter1 V c i s hs := by
  unfold quarter1
  refine Finset.sum_congr rfl fun d _ => ?_
  have hk : (⟨1024 * s + d.val, by have := d.isLt; omega⟩ : Fin 4096).val = 1024 * ((⟨m, hm⟩ : Fin cfg1.N).val % 4) + d.val := by
    show 1024 * s + d.val = 1024 * (m % 4) + d.val
    rw [hms]
  exact congrArg₂ (· * ·) (hblk1_apply V c ⟨m, hm⟩ p d (i 0) ⟨1024 * s + d.val, by have := d.isLt; omega⟩ hi0 hk)
    (wblk1_apply V c ⟨m, hm⟩ d q ⟨1024 * s + d.val, by have := d.isLt; omega⟩ (i 1) hk hi1)

/-- What a storing point leaves in the output block at (p, q) is the closed form at the output index that (p, q) of its
    block is: the accumulator was reset three points before and has grown by one quarter at each point since. -/
theorem out1_val (c : Dev nD) (n : ℕ) (hn : n < cfg1.N) (h3 : n % 4 = 3) (p q : Fin 1024) (i : S4096x4096.Idx)
    (hi0 : (i 0).val = 1024 * (n / 16) + p.val) (hi1 : (i 1).val = 1024 * (n / 4 % 4) + q.val) :
    outAt1 V c n hn (ix2 p q) = G1 V c i := by
  have hN : cfg1.N = 64 := N_1
  have hn1 : n - 1 < cfg1.N := by omega
  have hn2 : n - 1 - 1 < cfg1.N := by omega
  have hn3 : n - 1 - 1 - 1 < cfg1.N := by omega
  rw [out1_Cv V c n hn h3 p q, acc1_B V c (n - 1) hn1 (by omega) (by omega) p q,
    acc1_B V c (n - 1 - 1) hn2 (by omega) (by omega) p q, acc1_A V c (n - 1 - 1 - 1) hn3 (by omega) p q]
  rw [blockprod1 V c n hn p q i hi0 hi1 3 (by omega) h3,
    blockprod1 V c (n - 1) hn1 p q i (by omega) (by omega) 2 (by omega) (by omega),
    blockprod1 V c (n - 1 - 1) hn2 p q i (by omega) (by omega) 1 (by omega) (by omega),
    blockprod1 V c (n - 1 - 1 - 1) hn3 p q i (by omega) (by omega) 0 (by omega) (by omega),
    bblk1_apply V c ⟨n, hn⟩ q (i 1) hi1, zero_add]
  show _ = (∑ k : Fin 4096, harr1 V c (ix2 (i 0) k) * warr1 V c (ix2 k (i 1))) + barr1 V c (ix2 (0 : Fin 1) (i 1))
  rw [sum_quarters1 V c i]

/-- The same at an index of the block given whole. -/
theorem out1_val' (c : Dev nD) (t : Fin cfg1.N) (h3 : t.val % 4 = 3) (y : S1024x1024.Idx) (i : S4096x4096.Idx)
    (hi0 : (i 0).val = 1024 * (t.val / 16) + (y 0).val) (hi1 : (i 1).val = 1024 * (t.val / 4 % 4) + (y 1).val) :
    outAt1 V c t.val t.isLt y = G1 V c i := by
  obtain ⟨p, q, rfl⟩ : ∃ (p q : Fin 1024), y = ix2 p q := ⟨y 0, y 1, eq_ix2 y⟩
  exact out1_val V c t.val t.isLt h3 p q i hi0 hi1

/-- What a storing point writes back is its block of the closed form. -/
theorem flushed1_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  obtain ⟨-, -, -, -, -, -, e6, e7⟩ := idx1 t
  show (cfg1.win 3).cut (grid1.coords t) ((dat1 V c).after 3 t) = _
  rw [after1_3]
  funext j
  rw [View.read_apply]
  refine out1_val' V c t h3 _ _ ?_ ?_
  · show win1_3.index t 0 * 1024 + 1 * (j 0).val = 1024 * (t.val / 16) + (j 0).val
    rw [e6]; omega
  · show win1_3.index t 1 * 1024 + 1 * (j 1).val = 1024 * (t.val / 4 % 4) + (j 1).val
    rw [e7]; omega

/-- The output array after the region is the closed form: every index lies in the block of the storing point of its
    block row and block column. -/
theorem oarr1_eq (c : Dev nD) : oarr1 V c = G1 V c := by
  refine (dat1 V c).arrAt_eq_of_cover 3 (G1 V c) (flushed1_eq V c) fun i => ?_
  have hN : cfg1.N = 64 := N_1
  have h0 : (i 0 : ℕ) < 4096 := (i 0).isLt
  have h1 : (i 1 : ℕ) < 4096 := (i 1).isLt
  obtain ⟨T, hT⟩ : ∃ T : ℕ, T = ((i 0 : ℕ) / 1024 * 4 + (i 1 : ℕ) / 1024) * 4 + 3 := ⟨_, rfl⟩
  have ht : T < cfg1.N := by omega
  obtain ⟨-, -, -, -, -, -, e6, e7⟩ := idx1 ⟨T, ht⟩
  dsimp only at e6 e7
  refine ⟨⟨T, ht⟩, (flush1_3 ⟨T, ht⟩).mpr (by show T % 4 = 3; omega), ?_⟩
  show i ∈ ((View.whole main_v8).slice (win1_3.rect ⟨T, ht⟩)).set
  rw [View.set_slice_whole, Rect.mem_set_unit]
  intro a
  match a with
  | ⟨0, _⟩ =>
    show win1_3.index ⟨T, ht⟩ 0 * 1024 ≤ (i 0 : ℕ) ∧ (i 0 : ℕ) < win1_3.index ⟨T, ht⟩ 0 * 1024 + 1024
    rw [e6]; omega
  | ⟨1, _⟩ =>
    show win1_3.index ⟨T, ht⟩ 1 * 1024 ≤ (i 1 : ℕ) ∧ (i 1 : ℕ) < win1_3.index ⟨T, ht⟩ 1 * 1024 + 1024
    rw [e7]; omega

/-- Entry (r, o) of the second pallas_call's output array after the region: row r of h against column o of the
    weights, plus the bias of column o. -/
theorem final1 (c : Dev nD) (r o : Fin 4096) :
    oarr1 V c (ix2 r o)
      = (∑ k : Fin 4096, harr1 V c (ix2 r k) * warr1 V c (ix2 k o)) + barr1 V c (ix2 0 o) := by
  rw [oarr1_eq V c]

end Cert.KernelIdeal.Hand

end
-- ==== Proof.KHost.lean ====
import proofs.«402536_j80994493268150_2_alg».proof.Proof.Gen.KernelIdeal.Regions
import proofs.«402536_j80994493268150_2_alg».proof.Defs
import proofs.«402536_j80994493268150_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.KHost

open Cert.KernelIdeal Cert.KernelIdeal.Gen
open Idealize.ShloMosaic Idealize.ShloMosaic.TcCoe Idealize.SL.Sem
open Idealize.ShloMosaic.ValueIdx
open Idealize.ShloMosaic.StableHlo.Predicate (ixP)

/-! ## The take: its index chain, its mask, its value -/

/-- The index column of a take from a table of 16384 rows: a negative index is moved up by the table's length, the others are kept;
    the 4096 results are laid out as a [4096, 1] column of start indices. -/
def selOf (a5 : IVec S4096 32) : IVec S4096x1 32 :=
  broadcastInDim S4096x1 ![0] bcast_S4096_S4096x1_0
    (select (cmpi .slt a5 (broadcastInDim S4096 ![] bcast_S_S4096 (constantI S_ 32 0#32)))
            (addi a5 (broadcastInDim S4096 ![] bcast_S_S4096 (constantI S_ 32 16384#32))) a5)

/-- The take's validity mask: row p is set when its start index lies in [0, 16383]. -/
def maskOf (a5 : IVec S4096 32) : IVec S4096 1 :=
  Host.reduce IntOp.andi
    (andi (cmpi .sge (selOf a5) (broadcastInDim S4096x1 ![] bcast_S_S4096x1 (constantI S_ 32 0#32)))
          (cmpi .sle (selOf a5) (broadcastInDim S4096x1 ![0, 1] bcast_S1x1_S4096x1_0_1
              (broadcastInDim S1x1 ![1] bcast_S1_S1x1_1 (constantI S1 32 16383#32)))))
    (constantI S_ 1 1#1) reducesTo_S4096x1_S4096_d1 h_S_

/-- The take of rows of a [16384, 4096] table: the gathered rows where the mask is set, the quiet NaN word elsewhere. -/
def take2 (x : S16384x4096.Idx → EReal) (a5 : IVec S4096 32) : S4096x4096.Idx → EReal :=
  select (broadcastInDim S4096x4096 ![0] bcast_S4096_S4096x4096_0 (maskOf a5))
    (Host.gather gather_S16384x4096_S4096x1_S4096x4096_1_0_n_n_0_1_14096 x (selOf a5))
    (broadcastInDim S4096x4096 ![] bcast_S_S4096x4096 (constant (F := Ideal) S_ .f32 0x7FC00000#32))

/-- The take of entries of a [16384] table. -/
def take1 (x : S16384.Idx → EReal) (a5 : IVec S4096 32) : S4096.Idx → EReal :=
  select (maskOf a5)
    (Host.gather gather_S16384_S4096x1_S4096_n_0_n_n_0_1_1 x (selOf a5))
    (broadcastInDim S4096 ![] bcast_S_S4096 (constant (F := Ideal) S_ .f32 0x7FC00000#32))

/-! ## Words and indices -/

/-- The rank-1 index at coordinate k, in either spelling. -/
theorem ofFin_eq_ix1 {n : Nat} (k : Fin n) : Shape.Idx.ofFin k = ix1 k := by
  funext d; match d with | ⟨0, _⟩ => rfl

/-- An index of a [4096, 1] column is row p of it. -/
theorem exists_ixP (i : S4096x1.Idx) : ∃ p : Fin 4096, i = ixP p := by
  refine ⟨⟨(i 0).val, idx2_lt0 i⟩, ?_⟩
  funext a
  match a with
  | ⟨0, _⟩ => rfl
  | ⟨1, _⟩ =>
    apply Fin.ext
    have h := idx2_lt1 i
    show (i 1).val = 0
    omega

/-- The start index of row p, read off the chain. -/
theorem sel_apply (a5 : IVec S4096 32) (p : Fin 4096) :
    selOf a5 (ixP p)
      = Scalar.select (IntOp.cmpi .slt (a5 (ix1 p)) 0#32) (IntOp.addi (a5 (ix1 p)) 16384#32) (a5 (ix1 p)) := by
  unfold selOf
  rw [StableHlo.Predicate.bcast_col1, ofFin_eq_ix1]
  rfl

/-- An index word in [0, 16384) is not negative, so the chain keeps it. -/
theorem sel_of_range (a5 : IVec S4096 32) (p : Fin 4096) (h0 : 0 ≤ (a5 (ix1 p)).toInt) :
    selOf a5 (ixP p) = a5 (ix1 p) := by
  rw [sel_apply]
  have hz : IntOp.cmpi .slt (a5 (ix1 p)) 0#32 = 0#1 := by
    apply eq_zero_of_ne_one
    rw [IntOp.cmpi_slt]
    have : (0#32 : BitVec 32).toInt = 0 := by decide
    omega
  rw [hz, select_zero]

/-- A left fold by `and` from 1 over 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a List.mem_cons_self⟩) (fun n hn => hl n (List.mem_cons_of_mem _ hn))

/-- With every index word in [0, 16384) the take's mask is all ones. -/
theorem mask_ones (a5 : IVec S4096 32) (hr : ∀ q : Fin 4096, 0 ≤ (a5 (ix1 q)).toInt ∧ (a5 (ix1 q)).toInt < 16384) :
    maskOf a5 = fun _ => 1#1 := by
  funext j
  unfold maskOf
  rw [Host.reduce_eq_foldl]
  refine foldl_andi_ones _ _ _ rfl (fun i _ => ?_)
  obtain ⟨p, rfl⟩ := exists_ixP i
  show IntOp.andi (IntOp.cmpi .sge (selOf a5 (ixP p)) 0#32) (IntOp.cmpi .sle (selOf a5 (ixP p)) 16383#32) = 1#1
  rw [sel_of_range a5 p (hr p).1]
  have h0 : (0#32 : BitVec 32).toInt = 0 := by decide
  have h1 : (16383#32 : BitVec 32).toInt = 16383 := by decide
  have := hr p
  exact IntOp.andi_eq_one.2 ⟨IntOp.cmpi_sge.2 (by omega), IntOp.cmpi_sle.2 (by omega)⟩

/-- With an all-ones mask the takes are the gathers. -/
theorem take2_of_mask (x : S16384x4096.Idx → EReal) (a5 : IVec S4096 32) (hm : maskOf a5 = fun _ => 1#1) :
    take2 x a5 = Host.gather gather_S16384x4096_S4096x1_S4096x4096_1_0_n_n_0_1_14096 x (selOf a5) := by
  unfold take2
  rw [hm]
  funext i
  exact select_one _ _

theorem take1_of_mask (x : S16384.Idx → EReal) (a5 : IVec S4096 32) (hm : maskOf a5 = fun _ => 1#1) :
    take1 x a5 = Host.gather gather_S16384_S4096x1_S4096_n_0_n_n_0_1_1 x (selOf a5) := by
  unfold take1
  rw [hm]
  funext i
  exact select_one _ _

/-! ## What each host stretch writes, from any contents W -/

section Stretches

variable (W : Valuation τ sig (Elt Ideal))

/-- The first take leaves in its result the take of the first table at the index vector. -/
theorem after0_v0 :
    (StableHlo.after (hostOps0 (F := Ideal)) W main_v0 : S4096x4096.Idx → EReal)
      = take2 (W main_arg1) (W main_arg5) := by
  dsimp only [hostOps0]
  after_results_simp
  rfl

/-- The cast to bf16 is the identity on extended reals. -/
theorem after1_v1 :
    (StableHlo.after (hostOps0_1 (F := Ideal)) W main_v1 : S4096x4096.Idx → EReal) = W main_v0 := by
  dsimp only [hostOps0_1]
  after_results_simp
  rfl

/-- The second take: of the first bias table. -/
theorem after2_v2 :
    (StableHlo.after (hostOps0_2 (F := Ideal)) W main_v2 : S4096.Idx → EReal)
      = take1 (W main_arg2) (W main_arg5) := by
  dsimp only [hostOps0_2]
  after_results_simp
  rfl

/-- The reshape to one row reads column q at entry q. -/
theorem after3_v3 (q : Fin 4096) :
    (StableHlo.after (hostOps0_3 (F := Ideal)) W main_v3 : S1x4096.Idx → EReal) (ix2 0 q)
      = (W main_v2 : S4096.Idx → EReal) (ix1 q) := by
  dsimp only [hostOps0_3]
  after_results_simp
  refine shapeCast_apply (s := S4096) (t := S1x4096) _ _ (ix2 0 q) (ix1 q) ?_
  rw [Shape.rowMajor_val_one, Shape.rowMajor_val_two]
  show q.val = 0 * 4096 + q.val
  omega

/-- The third take: of the second table. -/
theorem after4_v4 :
    (StableHlo.after (hostOps0_4 (F := Ideal)) W main_v4 : S4096x4096.Idx → EReal)
      = take2 (W main_arg3) (W main_arg5) := by
  dsimp only [hostOps0_4]
  after_results_simp
  rfl

theorem after5_v5 :
    (StableHlo.after (hostOps0_5 (F := Ideal)) W main_v5 : S4096x4096.Idx → EReal) = W main_v4 := by
  dsimp only [hostOps0_5]
  after_results_simp
  rfl

theorem after5_v6 (q : Fin 4096) :
    (StableHlo.after (hostOps0_5 (F := Ideal)) W main_v6 : S1x4096.Idx → EReal) (ix2 0 q)
      = (W main_arg4 : S4096.Idx → EReal) (ix1 q) := by
  dsimp only [hostOps0_5]
  after_results_simp
  refine shapeCast_apply (s := S4096) (t := S1x4096) _ _ (ix2 0 q) (ix1 q) ?_
  rw [Shape.rowMajor_val_one, Shape.rowMajor_val_two]
  show q.val = 0 * 4096 + q.val
  omega

end Stretches

/-! ## The arrays the two pallas_calls read, as functions of the launch memory -/

section Boundary

variable (m : (ℓ : Loc nD τ sig) → Buf (Elt Ideal) ℓ)

/-- A reference that the first two stretches do not write holds its launch contents after them. -/
theorem V2_eq_V0 (c : Dev nD) (r : Ref sig .tc) (h0 : r ∉ hostOps0_W) (h1 : r ∉ hostOps0_1_W) :
    V2 m c r = V0 m c r :=
  (V2_of m c r h1).trans (V1_of m c r h0)

/-- The same through the first four stretches. -/
theorem V4_eq_V0 (c : Dev nD) (r : Ref sig .tc) (h0 : r ∉ hostOps0_W) (h1 : r ∉ hostOps0_1_W)
    (h2 : r ∉ hostOps0_2_W) (h3 : r ∉ hostOps0_3_W) : V4 m c r = V0 m c r :=
  (V4_of m c r h3).trans <| (V3_of m c r h2).trans <| V2_eq_V0 m c r h0 h1

/-- The same through the first five stretches. -/
theorem V5_eq_V0 (c : Dev nD) (r : Ref sig .tc) (h0 : r ∉ hostOps0_W) (h1 : r ∉ hostOps0_1_W)
    (h2 : r ∉ hostOps0_2_W) (h3 : r ∉ hostOps0_3_W) (h4 : r ∉ hostOps0_4_W) : V5 m c r = V0 m c r :=
  (V5_of m c r h4).trans <| V4_eq_V0 m c r h0 h1 h2 h3

/-- Every entry of the index vector names a row of the 16384-row tables. -/
def InRange (a5 : IVec S4096 32) : Prop := ∀ q : Fin 4096, 0 ≤ (a5 (ix1 q)).toInt ∧ (a5 (ix1 q)).toInt < 16384

/-- The precondition's last conjunct, read entry by entry: the index vector is in range on every device. -/
theorem idx_range (hpre : Cert.Pre_KernelIdeal (hPre_finite_inputs := Cert.Pre_finite_inputs.Gen.facts) m) (c : Dev nD) :
    InRange (m ((c.tc : Thread nD τ).loc main_arg5)) := by
  intro q
  -- a rank-0 shape has one index
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1] at e
  -- the last conjunct is the all-reduction of (0 ≤ index) and (index < 16384), entry by entry
  obtain ⟨-, h29⟩ := IntOp.andi_eq_one.1 e
  have h28 := Host.reduce_andi_all _ _ _ _ _ h29 (ix1 q)
  obtain ⟨hge, hlt⟩ := IntOp.andi_eq_one.1 h28
  have h0 : (0#32 : BitVec 32).toInt = 0 := by decide
  have h1 : (16384#32 : BitVec 32).toInt = 16384 := by decide
  have hge' : (0#32 : BitVec 32).toInt ≤ (m ((c.tc : Thread nD τ).loc main_arg5) (ix1 q)).toInt :=
    IntOp.cmpi_sge.1 hge
  have hlt' : (m ((c.tc : Thread nD τ).loc main_arg5) (ix1 q)).toInt < (16384#32 : BitVec 32).toInt :=
    IntOp.cmpi_slt.1 hlt
  rw [h0] at hge'
  rw [h1] at hlt'
  exact ⟨hge', hlt'⟩

/-- No host stretch writes the first argument. -/
theorem V6_main_arg0 (c : Dev nD) :
    (V6 m c main_arg0 : S4096x4096.Idx → EReal) = m ((c.tc : Thread nD τ).loc main_arg0) := by
  exact (V6_of m c main_arg0 (by decide)).trans
    (V5_eq_V0 m c main_arg0 (by decide) (by decide) (by decide) (by decide) (by decide))

/-- With the index vector in range the first pallas_call's weight operand is the gathered rows of the first table. -/
theorem V6_main_v1 (c : Dev nD) (hr : InRange (m ((c.tc : Thread nD τ).loc main_arg5))) :
    (V6 m c main_v1 : S4096x4096.Idx → EReal)
      = Host.gather gather_S16384x4096_S4096x1_S4096x4096_1_0_n_n_0_1_14096 (m ((c.tc : Thread nD τ).loc main_arg1))
          (selOf (m ((c.tc : Thread nD τ).loc main_arg5))) := by
  have h1 : V6 m c main_v1 = V2 m c main_v1 :=
    (V6_of m c main_v1 (by decide)).trans <| (V5_of m c main_v1 (by decide)).trans <|
      (V4_of m c main_v1 (by decide)).trans (V3_of m c main_v1 (by decide))
  have h2 : (V2 m c main_v1 : S4096x4096.Idx → EReal) = V1 m c main_v0 := after1_v1 (V1 m c)
  have h3 : (V1 m c main_v0 : S4096x4096.Idx → EReal) = take2 (V0 m c main_arg1) (V0 m c main_arg5) :=
    after0_v0 (V0 m c)
  exact h1.trans (h2.trans (h3.trans (take2_of_mask _ _ (mask_ones _ hr))))

/-- Its bias operand, a single row, holds the gathered entries of the first bias table. -/
theorem V6_main_v3 (c : Dev nD) (hr : InRange (m ((c.tc : Thread nD τ).loc main_arg5))) (q : Fin 4096) :
    (V6 m c main_v3 : S1x4096.Idx → EReal) (ix2 0 q)
      = Host.gather gather_S16384_S4096x1_S4096_n_0_n_n_0_1_1 (m ((c.tc : Thread nD τ).loc main_arg2))
          (selOf (m ((c.tc : Thread nD τ).loc main_arg5))) (ix1 q) := by
  have h1 : V6 m c main_v3 = V4 m c main_v3 :=
    (V6_of m c main_v3 (by decide)).trans (V5_of m c main_v3 (by decide))
  have h2 : (V4 m c main_v3 : S1x4096.Idx → EReal) (ix2 0 q) = (V3 m c main_v2 : S4096.Idx → EReal) (ix1 q) :=
    after3_v3 (V3 m c) q
  have h3 : (V3 m c main_v2 : S4096.Idx → EReal) = take1 (V2 m c main_arg2) (V2 m c main_arg5) :=
    after2_v2 (V2 m c)
  have ha2 : V2 m c main_arg2 = V0 m c main_arg2 := V2_eq_V0 m c main_arg2 (by decide) (by decide)
  have ha5 : V2 m c main_arg5 = V0 m c main_arg5 := V2_eq_V0 m c main_arg5 (by decide) (by decide)
  have h4 : take1 (V2 m c main_arg2) (V2 m c main_arg5) = take1 (V0 m c main_arg2) (V0 m c main_arg5) := by
    rw [ha2, ha5]
  have h5 : (V6 m c main_v3 : S1x4096.Idx → EReal) = V4 m c main_v3 := h1
  exact (congrFun h5 _).trans (h2.trans (congrFun (h3.trans (h4.trans (take1_of_mask _ _ (mask_ones _ hr)))) _))

/-- The second pallas_call's weight operand is the gathered rows of the second table. -/
theorem V6_main_v5 (c : Dev nD) (hr : InRange (m ((c.tc : Thread nD τ).loc main_arg5))) :
    (V6 m c main_v5 : S4096x4096.Idx → EReal)
      = Host.gather gather_S16384x4096_S4096x1_S4096x4096_1_0_n_n_0_1_14096 (m ((c.tc : Thread nD τ).loc main_arg3))
          (selOf (m ((c.tc : Thread nD τ).loc main_arg5))) := by
  have h1 : (V6 m c main_v5 : S4096x4096.Idx → EReal) = V5 m c main_v4 := after5_v5 (V5 m c)
  have h2 : (V5 m c main_v4 : S4096x4096.Idx → EReal) = take2 (V4 m c main_arg3) (V4 m c main_arg5) :=
    after4_v4 (V4 m c)
  have ha3 : V4 m c main_arg3 = V0 m c main_arg3 :=
    V4_eq_V0 m c main_arg3 (by decide) (by decide) (by decide) (by decide)
  have ha5 : V4 m c main_arg5 = V0 m c main_arg5 :=
    V4_eq_V0 m c main_arg5 (by decide) (by decide) (by decide) (by decide)
  have h3 : take2 (V4 m c main_arg3) (V4 m c main_arg5) = take2 (V0 m c main_arg3) (V0 m c main_arg5) := by
    rw [ha3, ha5]
  exact h1.trans (h2.trans (h3.trans (take2_of_mask _ _ (mask_ones _ hr))))

/-- Its bias operand, a single row, holds the second bias vector. -/
theorem V6_main_v6 (c : Dev nD) (q : Fin 4096) :
    (V6 m c main_v6 : S1x4096.Idx → EReal) (ix2 0 q)
      = (m ((c.tc : Thread nD τ).loc main_arg4) : S4096.Idx → EReal) (ix1 q) := by
  have h1 : (V6 m c main_v6 : S1x4096.Idx → EReal) (ix2 0 q) = (V5 m c main_arg4 : S4096.Idx → EReal) (ix1 q) :=
    after5_v6 (V5 m c) q
  have ha4 : V5 m c main_arg4 = V0 m c main_arg4 :=
    V5_eq_V0 m c main_arg4 (by decide) (by decide) (by decide) (by decide) (by decide)
  have h2 : (V5 m c main_arg4 : S4096.Idx → EReal) = V0 m c main_arg4 := ha4
  exact h1.trans (congrFun h2 _)

end Boundary

end Cert.KernelIdeal.KHost
end
-- ==== Proof.RefSide.lean ====
/-
  The reference's result as ONE function of its argument arrays, at the ideal instance (floats are extended reals,
  every operation exact).

  The reference computes, for a table row selection `idx`,
      out = relu (x · W1[idx]ᵀ + b1[idx]) · W2[idx] + b2 .
  The three gathers `W1[idx]`, `b1[idx]`, `W2[idx]` are kept as they are printed (a `Host.gather` of the argument
  at the index chain `select (idx < 0) (idx + 16384) idx`, broadcast to a column): they are named `gW1`, `gB1`,
  `gW2` below and never opened. Over the gathered arrays the result is, entry by entry,
      hidden r s = max (∑ d, x[r,d] * w1[s,d] + b1[s]) 0 ,
      result r o = ∑ k, hidden r k * w2[k,o] + b2[o] ,
  the first contraction over the SECOND axis of both operands (x · w1ᵀ), the second the ordinary matrix product.
  `result_eq` says the term the reference's run states for its result buffer is this function of the arguments.
-/
import proofs.«402536_j80994493268150_2_alg».proof.Defs
import proofs.«402536_j80994493268150_2_alg».proof.Proof.Gen.ReferenceIdeal.Read
import proofs.«402536_j80994493268150_2_alg».proof.Proof.Gen.Pre_finite_inputs

noncomputable section

namespace Cert.ReferenceIdeal.RefSide

open Cert.ReferenceIdeal Cert.ReferenceIdeal.Gen Idealize.ShloMosaic Idealize.ShloMosaic.TcCoe Idealize.SL.Sem
  Idealize.ShloMosaic.StableHlo Idealize.ShloMosaic.ValueIdx

/-! ## The gathered operands, kept closed -/

section Gathers
variable {F : FTy → Type} [FloatOps F]

/-- The row selection as the gathers read it: a negative index is taken from the end of the table
    (`idx + 16384`), any other as it is; laid out as a column `[4096, 1]`. -/
def sel (a5 : (⟨S4096, .i32⟩ : BufTy).Contents (Elt F)) : (⟨S4096x1, .i32⟩ : BufTy).Contents (Elt F) :=
  broadcastInDim S4096x1 ![0] bcast_S4096_S4096x1_0
    (select (cmpi .slt (a5) (broadcastInDim S4096 ![] bcast_S_S4096 (constantI S_ 32 0#32)))
      (addi (a5) (broadcastInDim S4096 ![] bcast_S_S4096 (constantI S_ 32 16384#32))) (a5))

/-- The selected rows of the first weight table: `W1[idx]`, row `s` the table's row `idx s`. -/
def gW1 (a1 : (⟨S16384x4096, .f32⟩ : BufTy).Contents (Elt F)) (a5 : (⟨S4096, .i32⟩ : BufTy).Contents (Elt F)) :
    (⟨S4096x4096, .f32⟩ : BufTy).Contents (Elt F) :=
  Host.gather gather_S16384x4096_S4096x1_S4096x4096_1_0_n_n_0_1_14096 (a1) (sel (F := F) a5)

/-- The selected entries of the first bias table: `b1[idx]`. -/
def gB1 (a2 : (⟨S16384, .f32⟩ : BufTy).Contents (Elt F)) (a5 : (⟨S4096, .i32⟩ : BufTy).Contents (Elt F)) :
    (⟨S4096, .f32⟩ : BufTy).Contents (Elt F) :=
  Host.gather gather_S16384_S4096x1_S4096_n_0_n_n_0_1_1 (a2) (sel (F := F) a5)

/-- The selected rows of the second weight table: `W2[idx]`, row `k` the table's row `idx k`. -/
def gW2 (a3 : (⟨S16384x4096, .f32⟩ : BufTy).Contents (Elt F)) (a5 : (⟨S4096, .i32⟩ : BufTy).Contents (Elt F)) :
    (⟨S4096x4096, .f32⟩ : BufTy).Contents (Elt F) :=
  Host.gather gather_S16384x4096_S4096x1_S4096x4096_1_0_n_n_0_1_14096 (a3) (sel (F := F) a5)

/-- The stages of the reference that are gathers are these, by unfolding names only. -/
theorem val_v6_eq (a1 : (⟨S16384x4096, .f32⟩ : BufTy).Contents (Elt F)) (a5 : (⟨S4096, .i32⟩ : BufTy).Contents (Elt F)) :
    Read.val_main_v6 (F := F) a1 a5 = gW1 (F := F) a1 a5 := rfl
theorem val_v13_eq (a2 : (⟨S16384, .f32⟩ : BufTy).Contents (Elt F)) (a5 : (⟨S4096, .i32⟩ : BufTy).Contents (Elt F)) :
    Read.val_main_v13 (F := F) a2 a5 = gB1 (F := F) a2 a5 := rfl
theorem val_v25_eq (a3 : (⟨S16384x4096, .f32⟩ : BufTy).Contents (Elt F)) (a5 : (⟨S4096, .i32⟩ : BufTy).Contents (Elt F)) :
    Read.val_main_v25 (F := F) a3 a5 = gW2 (F := F) a3 a5 := rfl

end Gathers

/-! ## The result, entry by entry -/

/-- The hidden layer: row `r` of `x` against row `s` of `w1` (a contraction over the second axis of both), plus the
    bias of column `s`, cut off below at zero. -/
def hidden (x w1 : FVec Ideal S4096x4096 .f32) (b1 : FVec Ideal S4096 .f32) (r s : Fin 4096) : EReal :=
  max ((∑ d : Fin 4096, x (ix2 r d) * w1 (ix2 s d)) + b1 (ix1 s)) 0

/-- One entry of the result: row `r` of the hidden layer against column `o` of `w2`, plus the bias of column `o`. -/
def resultAt (x w1 w2 : FVec Ideal S4096x4096 .f32) (b1 b2 : FVec Ideal S4096 .f32) (r o : Fin 4096) : EReal :=
  (∑ k : Fin 4096, hidden x w1 b1 r k * w2 (ix2 k o)) + b2 (ix1 o)

/-- The result array. -/
def result (x w1 w2 : FVec Ideal S4096x4096 .f32) (b1 b2 : FVec Ideal S4096 .f32) : FVec Ideal S4096x4096 .f32 :=
  fun i => resultAt x w1 w2 b1 b2 ⟨(i 0).val, (i 0).isLt⟩ ⟨(i 1).val, (i 1).isLt⟩

theorem result_ix2 (x w1 w2 : FVec Ideal S4096x4096 .f32) (b1 b2 : FVec Ideal S4096 .f32) (r o : Fin 4096) :
    result x w1 w2 b1 b2 (ix2 r o) = resultAt x w1 w2 b1 b2 r o := rfl

/-! ## The reference's operand indices, by coordinates -/

theorem lidx14 (r s k : Fin 4096) : Read.lidx_main_v14 (ix2 r s) k = ix2 r k :=
  funext fun a => match a with | ⟨0, _⟩ => rfl | ⟨1, _⟩ => rfl
theorem ridx14 (r s k : Fin 4096) : Read.ridx_main_v14 (ix2 r s) k = ix2 s k :=
  funext fun a => match a with | ⟨0, _⟩ => rfl | ⟨1, _⟩ => rfl
theorem lidx26 (r o k : Fin 4096) : Read.lidx_main_v26 (ix2 r o) k = ix2 r k :=
  funext fun a => match a with | ⟨0, _⟩ => rfl | ⟨1, _⟩ => rfl
theorem ridx26 (r o k : Fin 4096) : Read.ridx_main_v26 (ix2 r o) k = ix2 k o :=
  funext fun a => match a with | ⟨0, _⟩ => rfl | ⟨1, _⟩ => rfl
/-- A bias row broadcast over the rows reads the bias at the column. -/
theorem idx_bias (r s : Fin 4096) : Read.idx_main_v15 (Read.idx_main_v16 (ix2 r s)) = ix1 s :=
  funext fun a => match a with | ⟨0, _⟩ => rfl
theorem idx_bias2 (r o : Fin 4096) : Read.idx_main_v27 (Read.idx_main_v28 (ix2 r o)) = ix1 o :=
  funext fun a => match a with | ⟨0, _⟩ => rfl

/-! ## The reference is `result` -/

/-- The reference's result as its run spells it: every stage written out, for any float instance. -/
def runTerm {F : FTy → Type} [FloatOps F] (a0 : (⟨S4096x4096, .f32⟩ : BufTy).Contents (Elt F)) (a1 : (⟨S16384x4096, .f32⟩ : BufTy).Contents (Elt F))
    (a2 : (⟨S16384, .f32⟩ : BufTy).Contents (Elt F)) (a3 : (⟨S16384x4096, .f32⟩ : BufTy).Contents (Elt F))
    (a4 : (⟨S4096, .f32⟩ : BufTy).Contents (Elt F)) (a5 : (⟨S4096, .i32⟩ : BufTy).Contents (Elt F)) :
    (⟨S4096x4096, .f32⟩ : BufTy).Contents (Elt F) :=
  addf (Host.dotGeneral dot_S4096x4096_S4096x4096_S4096x4096_1_0_0_1_n_n none (maximumf (addf (Host.dotGeneral dot_S4096x4096_S4096x4096_S4096x4096_1_1_0_0_n_n none (a0) (Host.gather gather_S16384x4096_S4096x1_S4096x4096_1_0_n_n_0_1_14096 (a1) (broadcastInDim S4096x1 ![0] bcast_S4096_S4096x1_0 (select (cmpi .slt (a5) (broadcastInDim S4096 ![] bcast_S_S4096 (constantI S_ 32 0#32))) (addi (a5) (broadcastInDim S4096 ![] bcast_S_S4096 (constantI S_ 32 16384#32))) (a5))))) (broadcastInDim S4096x4096 ![0, 1] bcast_S1x4096_S4096x4096_0_1 (broadcastInDim S1x4096 ![1] bcast_S4096_S1x4096_1 (Host.gather gather_S16384_S4096x1_S4096_n_0_n_n_0_1_1 (a2) (broadcastInDim S4096x1 ![0] bcast_S4096_S4096x1_0 (select (cmpi .slt (a5) (broadcastInDim S4096 ![] bcast_S_S4096 (constantI S_ 32 0#32))) (addi (a5) (broadcastInDim S4096 ![] bcast_S_S4096 (constantI S_ 32 16384#32))) (a5))))))) (broadcastInDim S4096x4096 ![] bcast_S_S4096x4096 (constant S_ .f32 0x00000000#32))) (Host.gather gather_S16384x4096_S4096x1_S4096x4096_1_0_n_n_0_1_14096 (a3) (broadcastInDim S4096x1 ![0] bcast_S4096_S4096x1_0 (select (cmpi .slt (a5) (broadcastInDim S4096 ![] bcast_S_S4096 (constantI S_ 32 0#32))) (addi (a5) (broadcastInDim S4096 ![] bcast_S_S4096 (constantI S_ 32 16384#32))) (a5))))) (broadcastInDim S4096x4096 ![0, 1] bcast_S1x4096_S4096x4096_0_1 (broadcastInDim S1x4096 ![1] bcast_S4096_S1x4096_1 (a4)))

section
variable (a0 : (⟨S4096x4096, .f32⟩ : BufTy).Contents (Elt Ideal)) (a1 : (⟨S16384x4096, .f32⟩ : BufTy).Contents (Elt Ideal))
  (a2 : (⟨S16384, .f32⟩ : BufTy).Contents (Elt Ideal)) (a3 : (⟨S16384x4096, .f32⟩ : BufTy).Contents (Elt Ideal))
  (a4 : (⟨S4096, .f32⟩ : BufTy).Contents (Elt Ideal)) (a5 : (⟨S4096, .i32⟩ : BufTy).Contents (Elt Ideal))

/-- The hidden layer's stage at an entry. -/
theorem hidden_eq (r s : Fin 4096) :
    Read.val_main_v18 (F := Ideal) a0 a1 a2 a5 (ix2 r s)
      = hidden a0 (gW1 (F := Ideal) a1 a5) (gB1 (F := Ideal) a2 a5) r s := by
  rw [Read.val_main_v18_apply, Read.val_main_v17_apply, Read.val_main_v14_apply, Read.val_main_v16_apply,
    Read.val_main_v15_apply, Read.val_main_call0_v0_apply, Read.val_main_call0_cst_apply, idx_bias,
    val_v6_eq, val_v13_eq]
  simp only [lidx14, ridx14, Ideal.addf_def, Ideal.maximumf_def, Ideal.ofBits_def, Ideal.ofBits_zero_f32]
  rfl

/-- The last stage at an entry. -/
theorem resultAt_eq (r o : Fin 4096) :
    Read.val_main_v29 (F := Ideal) a0 a1 a2 a3 a4 a5 (ix2 r o)
      = resultAt a0 (gW1 (F := Ideal) a1 a5) (gW2 (F := Ideal) a3 a5) (gB1 (F := Ideal) a2 a5) a4 r o := by
  rw [Read.val_main_v29_apply, Read.val_main_v26_apply, Read.val_main_v28_apply, Read.val_main_v27_apply, idx_bias2,
    val_v25_eq]
  simp only [lidx26, ridx26, hidden_eq, Ideal.addf_def]
  rfl

/-- The term the reference's run states for its result buffer is `result` of the arguments, the three tables
    through their gathers. -/
theorem result_eq :
    Read.val_main_v29 (F := Ideal) a0 a1 a2 a3 a4 a5
      = result a0 (gW1 (F := Ideal) a1 a5) (gW2 (F := Ideal) a3 a5) (gB1 (F := Ideal) a2 a5) a4 := by
  funext i
  obtain ⟨r, o, rfl⟩ : ∃ (r o : Fin 4096), i = ix2 r o := ⟨i 0, i 1, eq_ix2 i⟩
  rw [result_ix2]
  exact resultAt_eq a0 a1 a2 a3 a4 a5 r o

/-- The same, over the term as the reference's run spells it. -/
theorem run_eq :
    runTerm (F := Ideal) a0 a1 a2 a3 a4 a5
      = result a0 (gW1 (F := Ideal) a1 a5) (gW2 (F := Ideal) a3 a5) (gB1 (F := Ideal) a2 a5) a4 :=
  (Read.val_main_v29_eq (F := Ideal) a0 a1 a2 a3 a4 a5).trans (result_eq a0 a1 a2 a3 a4 a5)

end

/-! ## The reference runs, its arguments unchanged -/

/-- On every device, from any memory with zero counters, every weakly fair execution of the reference terminates with
    its result buffer at `result` of the argument arrays' launch contents (the tables through their gathers) and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = result (m ((c.tc : Thread nD τ).loc main_arg0))
              (gW1 (F := Ideal) (m ((c.tc : Thread nD τ).loc main_arg1)) (m ((c.tc : Thread nD τ).loc main_arg5)))
              (gW2 (F := Ideal) (m ((c.tc : Thread nD τ).loc main_arg3)) (m ((c.tc : Thread nD τ).loc main_arg5)))
              (gB1 (F := Ideal) (m ((c.tc : Thread nD τ).loc main_arg2)) (m ((c.tc : Thread nD τ).loc main_arg5)))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans
      (run_eq (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))), (h c).2⟩)
    (Cert.ReferenceIdeal.Value.run (F := Ideal) m ρ)

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefSide

end
-- ==== Proof.Bridge.lean ====
/-
  The kernel program's result is the reference's function of the arguments, at the ideal instance.

  The second pallas_call leaves  out[r,o] = sum over k of h[r,k] * w2[k,o] + b2[o]  in its output array, where h is what
  the first pallas_call left:  h[r,k] = max (sum over d of x[r,d] * w1[k,d] + b1[k]) 0 . The operands w1, b1, w2 are
  the host's takes of the three tables at the index vector; with every index a row of the tables (the precondition) a take
  is the plain gather of those rows, the very gather the reference's program spells. So entry by entry the result
  is the reference's  sum over k of hidden[r,k] * w2[k,o] + b2[o] .
-/
import proofs.«402536_j80994493268150_2_alg».proof.Proof.KI.R0Value
import proofs.«402536_j80994493268150_2_alg».proof.Proof.KI.R1Value
import proofs.«402536_j80994493268150_2_alg».proof.Proof.KHost
import proofs.«402536_j80994493268150_2_alg».proof.Proof.RefSide

set_option maxRecDepth 16384

noncomputable section

namespace Cert.Bridge

open Cert.KernelIdeal Cert.KernelIdeal.Gen Cert.KernelIdeal.Hand Cert.KernelIdeal.KHost
open Idealize.ShloMosaic Idealize.ShloMosaic.TcCoe Idealize.SL.Sem
open Idealize.ShloMosaic.ValueIdx

/-! ## The two programs spell the same gathers -/

/-- The rows of the first table at the index column: the kernel program's gather is the reference's. -/
theorem gW1_eq (a1 : S16384x4096.Idx → EReal) (a5 : IVec S4096 32) :
    Host.gather gather_S16384x4096_S4096x1_S4096x4096_1_0_n_n_0_1_14096 a1 (selOf a5)
      = Cert.ReferenceIdeal.RefSide.gW1 (F := Ideal) a1 a5 := rfl

/-- The entries of the first bias table at the index column. -/
theorem gB1_eq (a2 : S16384.Idx → EReal) (a5 : IVec S4096 32) :
    Host.gather gather_S16384_S4096x1_S4096_n_0_n_n_0_1_1 a2 (selOf a5)
      = Cert.ReferenceIdeal.RefSide.gB1 (F := Ideal) a2 a5 := rfl

/-- The rows of the second table at the index column. -/
theorem gW2_eq (a3 : S16384x4096.Idx → EReal) (a5 : IVec S4096 32) :
    Host.gather gather_S16384x4096_S4096x1_S4096x4096_1_0_n_n_0_1_14096 a3 (selOf a5)
      = Cert.ReferenceIdeal.RefSide.gW2 (F := Ideal) a3 a5 := rfl

/-! ## The result -/

variable (m : (ℓ : Loc nD τ sig) → Buf (Elt Ideal) ℓ)

/-- Core `c`'s buffer contents after the six host stretches, where the first pallas_call is entered. -/
abbrev V6f : (c : Dev nD) → (b : Ref sig .tc) → Buf (Elt Ideal) ((c : Thread nD τ).loc b) := fun c b => V6 m c b

/-- The first pallas_call's x operand is the first argument as launched. -/
theorem x_eq (c : Dev nD) : xarr0 (V6f m) c = (m ((c.tc : Thread nD τ).loc main_arg0)) := V6_main_arg0 m c

/-- Its weight operand is the reference's gathered first table. -/
theorem w1_eq (c : Dev nD) (hr : InRange (m ((c.tc : Thread nD τ).loc main_arg5))) :
    warr0 (V6f m) c = Cert.ReferenceIdeal.RefSide.gW1 (F := Ideal) (m ((c.tc : Thread nD τ).loc main_arg1)) (m ((c.tc : Thread nD τ).loc main_arg5)) :=
  (V6_main_v1 m c hr).trans (gW1_eq _ _)

/-- Its bias row holds the reference's gathered first bias table. -/
theorem b1_eq (c : Dev nD) (hr : InRange (m ((c.tc : Thread nD τ).loc main_arg5))) (k : Fin 4096) :
    barr0 (V6f m) c (ix2 0 k) = Cert.ReferenceIdeal.RefSide.gB1 (F := Ideal) (m ((c.tc : Thread nD τ).loc main_arg2)) (m ((c.tc : Thread nD τ).loc main_arg5)) (ix1 k) :=
  (V6_main_v3 m c hr k).trans (congrFun (gB1_eq _ _) _)

/-- The second pallas_call's weight operand is the reference's gathered second table. -/
theorem w2_eq (c : Dev nD) (hr : InRange (m ((c.tc : Thread nD τ).loc main_arg5))) :
    warr1 (V6f m) c = Cert.ReferenceIdeal.RefSide.gW2 (F := Ideal) (m ((c.tc : Thread nD τ).loc main_arg3)) (m ((c.tc : Thread nD τ).loc main_arg5)) :=
  (V6_main_v5 m c hr).trans (gW2_eq _ _)

/-- Its bias row holds the second bias vector as launched. -/
theorem b2_eq (c : Dev nD) (o : Fin 4096) :
    barr1 (V6f m) c (ix2 0 o) = (m ((c.tc : Thread nD τ).loc main_arg4) : S4096.Idx → EReal) (ix1 o) :=
  V6_main_v6 m c o

/-- The hidden layer: what the first pallas_call leaves is the reference's hidden layer of the arguments. -/
theorem hidden_eq (hr : ∀ c : Dev nD, InRange (m ((c.tc : Thread nD τ).loc main_arg5))) (c : Dev nD) (r k : Fin 4096) :
    oarr0 (V6f m) c (ix2 r k)
      = Cert.ReferenceIdeal.RefSide.hidden (m ((c.tc : Thread nD τ).loc main_arg0))
          (Cert.ReferenceIdeal.RefSide.gW1 (F := Ideal) (m ((c.tc : Thread nD τ).loc main_arg1)) (m ((c.tc : Thread nD τ).loc main_arg5)))
          (Cert.ReferenceIdeal.RefSide.gB1 (F := Ideal) (m ((c.tc : Thread nD τ).loc main_arg2)) (m ((c.tc : Thread nD τ).loc main_arg5))) r k := by
  rw [final0 (V6f m) c r k, x_eq m c, w1_eq m c (hr c), b1_eq m c (hr c) k]
  rfl

/-- From contents `V1` that hold, at the second pallas_call's entry, the first one's output array in `main_v7` and the
    host's operands as the six stretches left them, the second pallas_call's output array is the reference's result
    of the launch memory's arguments. -/
theorem kernel_result
    (V1 : (c : Dev nD) → (b : Ref sig .tc) → Buf (Elt Ideal) ((c : Thread nD τ).loc b))
    (hpre : Cert.Pre_KernelIdeal (hPre_finite_inputs := Cert.Pre_finite_inputs.Gen.facts) m) (c : Dev nD)
    (h7 : harr1 V1 c = oarr0 (V6f m) c)
    (h5 : warr1 V1 c = warr1 (V6f m) c)
    (h6 : barr1 V1 c = barr1 (V6f m) c) :
    oarr1 V1 c
      = Cert.ReferenceIdeal.RefSide.result (m ((c.tc : Thread nD τ).loc main_arg0))
          (Cert.ReferenceIdeal.RefSide.gW1 (F := Ideal) (m ((c.tc : Thread nD τ).loc main_arg1)) (m ((c.tc : Thread nD τ).loc main_arg5)))
          (Cert.ReferenceIdeal.RefSide.gW2 (F := Ideal) (m ((c.tc : Thread nD τ).loc main_arg3)) (m ((c.tc : Thread nD τ).loc main_arg5)))
          (Cert.ReferenceIdeal.RefSide.gB1 (F := Ideal) (m ((c.tc : Thread nD τ).loc main_arg2)) (m ((c.tc : Thread nD τ).loc main_arg5)))
          (m ((c.tc : Thread nD τ).loc main_arg4)) := by
  funext i
  obtain ⟨r, o, rfl⟩ : ∃ (r o : Fin 4096), i = ix2 r o := ⟨i 0, i 1, eq_ix2 i⟩
  rw [Cert.ReferenceIdeal.RefSide.result_ix2, final1 V1 c r o, h7, h5, h6, w2_eq m c (idx_range m hpre c), b2_eq m c o]
  unfold Cert.ReferenceIdeal.RefSide.resultAt
  simp only [hidden_eq m (idx_range m hpre) c r]

end Cert.Bridge

end
-- ==== Proof.lean ====
/-
  A two-layer selective MLP on the TPU against its jnp reference, over the extended reals.

  Both programs gather 4096 rows of the two weight tables and 4096 entries of the first bias table at an index vector and
  compute, for x of shape [4096, 4096],
      out[r,o] = sum over k of max (sum over d of x[r,d] * W1[idx k, d] + b1[idx k]) 0 * W2[idx k, o] + b2[o] .
  The kernel program does the two matrix products in two pallas_calls, each on a 4 x 4 x 4 grid of 1024-blocks with an f32
  accumulator carried over the contracted axis' four quarters: reset at the first quarter, the bias (and for the hidden
  layer the cut-off at zero) applied and the block stored at the last. At the ideal instance a change of float format is
  the identity and the four partial sums are one sum regrouped, which needs only that addition of extended reals is
  commutative and associative; no entry need be finite. The host side differs in one point: the kernel program's take
  fills a row whose index is out of range while the reference's indexing clamps it, so the claim is stated for index
  vectors whose every entry is a row of the tables, and there both gathers are the same function.

  The frames: each pallas_call's frame is proved from its body's run at the three kinds of grid point (Proof/KI/R0*,
  R1*), the two are joined to the host stretches by the program's conditional frame (Proof/KI/Launch, Run), and the same
  text read at the word-level instance gives the printed kernel's frame (Proof/K). The values: each region's output array
  entry by entry (Proof/KI/R0Value, R1Value), the host's operands as gathers of the arguments (Proof/KHost), their
  composition (Proof/Bridge) and the reference's run read as the same function (Proof/RefSide).
-/
import proofs.«402536_j80994493268150_2_alg».proof.Defs
import proofs.«402536_j80994493268150_2_alg».proof.Proof.Gen.Kernel
import proofs.«402536_j80994493268150_2_alg».proof.Proof.Gen.KernelIdeal
import proofs.«402536_j80994493268150_2_alg».proof.Proof.Gen.ReferenceIdeal
import proofs.«402536_j80994493268150_2_alg».proof.Proof.Gen.Pre_finite_inputs
import proofs.«402536_j80994493268150_2_alg».proof.Proof.K.Run
import proofs.«402536_j80994493268150_2_alg».proof.Proof.KI.Run
import proofs.«402536_j80994493268150_2_alg».proof.Proof.Bridge
import proofs.«402536_j80994493268150_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-! ## What the second pallas_call is entered from -/

section Entry

open Cert.KernelIdeal Cert.KernelIdeal.Gen Cert.KernelIdeal.Hand Cert.Bridge

variable (m : (ℓ : Loc nD τ sig) → Buf (Elt Ideal) ℓ)

/-- The second pallas_call finds in its first operand's array what the first pallas_call left in its output array. -/
theorem entry_h (c : Dev nD) : harr1 (Vin1 m) c = oarr0 (V6f m) c := by
  have h1 : Vin1 m c main_v7 = outs7 m 7 main_v7 c := Function.update_self _ _ _
  have h2 : outs7 m 7 main_v7 c = (dat0 (Vin0 m) c).arrAt 3 cfg0.N := by
    unfold outs7 W7; exact Pipeline.withArrays_arr spec0 launch0.win.arr_inj c _ _ 3
  exact h1.trans h2

/-- Its weight operand is as the host stretches left it: the first pallas_call may change only its own output. -/
theorem entry_w (c : Dev nD) : warr1 (Vin1 m) c = warr1 (V6f m) c :=
  V7_of m (outs7 m) c main_v5 (by decide)

/-- So is its bias row. -/
theorem entry_b (c : Dev nD) : barr1 (Vin1 m) c = barr1 (V6f m) c :=
  V7_of m (outs7 m) c main_v6 (by decide)

end Entry

/-! ## The claims -/

/-- The printed kernel runs to the end, faults nowhere and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- From memories that agree on the six arguments, the index vector in range, both idealized programs end with their
    result buffers at one and the same function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefSide.result (m ((c.tc : Thread Cert.KernelIdeal.nD Cert.KernelIdeal.τ).loc Cert.KernelIdeal.main_arg0))
      (Cert.ReferenceIdeal.RefSide.gW1 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)))
      (Cert.ReferenceIdeal.RefSide.gW2 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg5)))
      (Cert.ReferenceIdeal.RefSide.gB1 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Bridge.kernel_result m (Cert.KernelIdeal.Hand.Vin1 m) hpre c
          (entry_h m c) (entry_w m c) (entry_b m c)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefSide.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefSide.frame_ri, trivial, algebraic⟩

end Cert.Proof

end
